-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x1024x512 : Shape := ⟨4, ![4, 8, 1024, 512]⟩
abbrev S512x512 : Shape := ⟨2, ![512, 512]⟩
abbrev S512 : Shape := ⟨1, ![512]⟩
abbrev S_ : Shape := ⟨0, ![]⟩

class Facts : Prop where
  bcast_S_S4x8x1024x512 : S_.BroadcastsInDim S4x8x1024x512 (![] : Fin 0 → Fin S4x8x1024x512.rank)
  reducesTo_S4x8x1024x512_S_d0_1_2_3 : S4x8x1024x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part8 {F : FTy → Type} [FloatOps F] (main_arg24 : FVec F S512 .f32) (main_v135 : IVec S_ 1) : IVec S_ 1 :=
  let main_cst_54 : FVec F S_ .f32 := constant S_ .f32 0x00000000#32
  let main_v136 : FVec F S512 .f32 := broadcastInDim S512 ![] bcast_S_S512 main_cst_54
  let main_v137 : IVec S512 1 := cmpf .oge main_arg24 main_v136
  let main_c_55 : IVec S_ 1 := constantI S_ 1 1#1
  let main_v138 : IVec S_ 1 := (fun x v => Host.reduce IntOp.andi x v reducesTo_S512_S_d0 h_S_) main_v137 main_c_55
  let main_v139 : IVec S_ 1 := andi main_v135 main_v138
  main_v139

def fn_part7 {F : FTy → Type} [FloatOps F] (main_arg6 : FVec F S512 .f32) (main_arg12 : FVec F S512 .f32) (main_arg18 : FVec F S512 .f32) (main_arg24 : FVec F S512 .f32) (main_v118 : IVec S_ 1) (main_v119 : FVec F S512 .f32) : IVec S_ 1 :=
  let main_cst_46 : FVec F S_ .f32 := constant S_ .f32 0x7F800000#32
  let main_v120 : FVec F S512 .f32 := broadcastInDim S512 ![] bcast_S_S512 main_cst_46
  let main_v121 : IVec S512 1 := cmpf .olt main_v119 main_v120
  let main_c_47 : IVec S_ 1 := constantI S_ 1 1#1
  let main_v122 : IVec S_ 1 := (fun x v => Host.reduce IntOp.andi x v reducesTo_S512_S_d0 h_S_) main_v121 main_c_47
  let main_v123 : IVec S_ 1 := andi main_v118 main_v122
  let main_cst_48 : FVec F S_ .f32 := constant S_ .f32 0x00000000#32
  let main_v124 : FVec F S512 .f32 := broadcastInDim S512 ![] bcast_S_S512 main_cst_48
  let main_v125 : IVec S512 1 := cmpf .oge main_arg6 main_v124
  let main_c_49 : IVec S_ 1 := constantI S_ 1 1#1
  let main_v126 : IVec S_ 1 := (fun x v => Host.reduce IntOp.andi x v reducesTo_S512_S_d0 h_S_) main_v125 main_c_49
  let main_v127 : IVec S_ 1 := andi main_v123 main_v126
  let main_cst_50 : FVec F S_ .f32 := constant S_ .f32 0x00000000#32
  let main_v128 : FVec F S512 .f32 := broadcastInDim S512 ![] bcast_S_S512 main_cst_50
  let main_v129 : IVec S512 1 := cmpf .oge main_arg12 main_v128
  let main_c_51 : IVec S_ 1 := constantI S_ 1 1#1
  let main_v130 : IVec S_ 1 := (fun x v => Host.reduce IntOp.andi x v reducesTo_S512_S_d0 h_S_) main_v129 main_c_51
  let main_v131 : IVec S_ 1 := andi main_v127 main_v130
  let main_cst_52 : FVec F S_ .f32 := constant S_ .f32 0x00000000#32
  let main_v132 : FVec F S512 .f32 := broadcastInDim S512 ![] bcast_S_S512 main_cst_52
  let main_v133 : IVec S512 1 := cmpf .oge main_arg18 main_v132
  let main_c_53 : IVec S_ 1 := constantI S_ 1 1#1
  let main_v134 : IVec S_ 1 := (fun x v => Host.reduce IntOp.andi x v reducesTo_S512_S_d0 h_S_) main_v133 main_c_53
  let main_v135 : IVec S_ 1 := andi main_v131 main_v134
  fn_part8 (F := F) main_arg24 main_v135

def fn_part6 {F : FTy → Type} [FloatOps F] (main_arg6 : FVec F S512 .f32) (main_arg12 : FVec F S512 .f32) (main_arg18 : FVec F S512 .f32) (main_arg21 : FVec F S512 .f32) (main_arg22 : FVec F S512 .f32) (main_arg23 : FVec F S512 .f32) (main_arg24 : FVec F S512 .f32) (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  let main_v104 : FVec F S512 .f32 := Host.absf main_arg21
  let main_cst_40 : FVec F S_ .f32 := constant S_ .f32 0x7F800000#32
  let main_v105 : FVec F S512 .f32 := broadcastInDim S512 ![] bcast_S_S512 main_cst_40
  let main_v106 : IVec S512 1 := cmpf .olt main_v104 main_v105
  let main_c_41 : IVec S_ 1 := constantI S_ 1 1#1
  let main_v107 : IVec S_ 1 := (fun x v => Host.reduce IntOp.andi x v reducesTo_S512_S_d0 h_S_) main_v106 main_c_41
  let main_v108 : IVec S_ 1 := andi main_v103 main_v107
  let main_v109 : FVec F S512 .f32 := Host.absf main_arg22
  let main_cst_42 : FVec F S_ .f32 := constant S_ .f32 0x7F800000#32
  let main_v110 : FVec F S512 .f32 := broadcastInDim S512 ![] bcast_S_S512 main_cst_42
  let main_v111 : IVec S512 1 := cmpf .olt main_v109 main_v110
  let main_c_43 : IVec S_ 1 := constantI S_ 1 1#1
  let main_v112 : IVec S_ 1 := (fun x v => Host.reduce IntOp.andi x v reducesTo_S512_S_d0 h_S_) main_v111 main_c_43
  let main_v113 : IVec S_ 1 := andi main_v108 main_v112
  let main_v114 : FVec F S512 .f32 := Host.absf main_arg23
  let main_cst_44 : FVec F S_ .f32 := constant S_ .f32 0x7F800000#32
  let main_v115 : FVec F S512 .f32 := broadcastInDim S512 ![] bcast_S_S512 main_cst_44
  let main_v116 : IVec S512 1 := cmpf .olt main_v114 main_v115
  let main_c_45 : IVec S_ 1 := constantI S_ 1 1#1
  let main_v117 : IVec S_ 1 := (fun x v => Host.reduce IntOp.andi x v reducesTo_S512_S_d0 h_S_) main_v116 main_c_45
  let main_v118 : IVec S_ 1 := andi main_v113 main_v117
  let main_v119 : FVec F S512 .f32 := Host.absf main_arg24
  fn_part7 (F := F) main_arg6 main_arg12 main_arg18 main_arg24 main_v118 main_v119

def fn_part5 {F : FTy → Type} [FloatOps F] (main_arg6 : FVec F S512 .f32) (main_arg12 : FVec F S512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512x512 .f32 := Host.absf main_arg19
  let main_cst_36 : FVec F S_ .f32 := constant S_ .f32 0x7F800000#32
  let main_v95 : FVec F S512x512 .f32 := broadcastInDim S512x512 ![] bcast_S_S512x512 main_cst_36
  let main_v96 : IVec S512x512 1 := cmpf .olt main_v94 main_v95
  let main_c_37 : IVec S_ 1 := constantI S_ 1 1#1
  let main_v97 : IVec S_ 1 := (fun x v => Host.reduce IntOp.andi x v reducesTo_S512x512_S_d0_1 h_S_) main_v96 main_c_37
  let main_v98 : IVec S_ 1 := andi main_v93 main_v97
  let main_v99 : FVec F S512 .f32 := Host.absf main_arg20
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_arg6 main_arg12 main_arg18 main_arg21 main_arg22 main_arg23 main_arg24 main_v98 main_v101 main_c_39

def fn_part4 {F : FTy → Type} [FloatOps F] (main_arg6 : FVec F S512 .f32) (main_arg12 : FVec F S512 .f32) (main_arg14 : FVec F S512 .f32) (main_arg15 : FVec F S512 .f32) (main_arg16 : FVec F S512 .f32) (main_arg17 : FVec F S512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg6 main_arg12 main_arg18 main_arg19 main_arg20 main_arg21 main_arg22 main_arg23 main_arg24 main_v83 main_v84 main_cst_32

def fn_part3 {F : FTy → Type} [FloatOps F] (main_arg6 : FVec F S512 .f32) (main_arg11 : FVec F S512 .f32) (main_arg12 : FVec F S512 .f32) (main_arg13 : FVec F S512x512 .f32) (main_arg14 : FVec F S512 .f32) (main_arg15 : FVec F S512 .f32) (main_arg16 : FVec F S512 .f32) (main_arg17 : FVec F S512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg6 main_arg12 main_arg14 main_arg15 main_arg16 main_arg17 main_arg18 main_arg19 main_arg20 main_arg21 main_arg22 main_arg23 main_arg24 main_v63 main_v67

def fn_part2 {F : FTy → Type} [FloatOps F] (main_arg6 : FVec F S512 .f32) (main_arg7 : FVec F S512x512 .f32) (main_arg8 : FVec F S512 .f32) (main_arg9 : FVec F S512 .f32) (main_arg10 : FVec F S512 .f32) (main_arg11 : FVec F S512 .f32) (main_arg12 : FVec F S512 .f32) (main_arg13 : FVec F S512x512 .f32) (main_arg14 : FVec F S512 .f32) (main_arg15 : FVec F S512 .f32) (main_arg16 : FVec F S512 .f32) (main_arg17 : FVec F S512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg6 main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S512 .f32) (main_arg5 : FVec F S512 .f32) (main_arg6 : FVec F S512 .f32) (main_arg7 : FVec F S512x512 .f32) (main_arg8 : FVec F S512 .f32) (main_arg9 : FVec F S512 .f32) (main_arg10 : FVec F S512 .f32) (main_arg11 : FVec F S512 .f32) (main_arg12 : FVec F S512 .f32) (main_arg13 : FVec F S512x512 .f32) (main_arg14 : FVec F S512 .f32) (main_arg15 : FVec F S512 .f32) (main_arg16 : FVec F S512 .f32) (main_arg17 : FVec F S512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg6 main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S4x8x1024x512 .f32) (main_arg1 : FVec F S512x512 .f32) (main_arg2 : FVec F S512 .f32) (main_arg3 : FVec F S512 .f32) (main_arg4 : FVec F S512 .f32) (main_arg5 : FVec F S512 .f32) (main_arg6 : FVec F S512 .f32) (main_arg7 : FVec F S512x512 .f32) (main_arg8 : FVec F S512 .f32) (main_arg9 : FVec F S512 .f32) (main_arg10 : FVec F S512 .f32) (main_arg11 : FVec F S512 .f32) (main_arg12 : FVec F S512 .f32) (main_arg13 : FVec F S512x512 .f32) (main_arg14 : FVec F S512 .f32) (main_arg15 : FVec F S512 .f32) (main_arg16 : FVec F S512 .f32) (main_arg17 : FVec F S512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) : IVec S_ 1 :=
  let main_v0 : FVec F S4x8x1024x512 .f32 := Host.absf main_arg0
  let main_cst : FVec F S_ .f32 := constant S_ .f32 0x7F800000#32
  let main_v1 : FVec F S4x8x1024x512 .f32 := broadcastInDim S4x8x1024x512 ![] bcast_S_S4x8x1024x512 main_cst
  let main_v2 : IVec S4x8x1024x512 1 := cmpf .olt main_v0 main_v1
  let main_c : IVec S_ 1 := constantI S_ 1 1#1
  let main_v3 : IVec S_ 1 := (fun x v => Host.reduce IntOp.andi x v reducesTo_S4x8x1024x512_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S4x8x1024x512 : Shape := ⟨4, ![4, 8, 1024, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S32x1024x512 : Shape := ⟨3, ![32, 1024, 512]⟩
abbrev S1x1024x512 : Shape := ⟨3, ![1, 1024, 512]⟩
abbrev S1024x512 : Shape := ⟨2, ![1024, 512]⟩
abbrev S1024x64 : Shape := ⟨2, ![1024, 64]⟩
abbrev S64x64 : Shape := ⟨2, ![64, 64]⟩

abbrev nBuf : Space → Nat
  | .hbm => 72
  | .vmem => 16
  | .smem => 0
  | _ => 0

abbrev bufTy : (tb : Table) → Fin (tcTables nBuf tb) → BufTy
  | .hbm, ⟨0, _⟩ => ⟨S4x8x1024x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512x512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S512, .f32⟩
  | .hbm, ⟨33, _⟩ => ⟨S1x512, .f32⟩
  | .hbm, ⟨34, _⟩ => ⟨S1x512, .f32⟩
  | .hbm, ⟨35, _⟩ => ⟨S_, .f32⟩
  | .hbm, ⟨36, _⟩ => ⟨S512, .f32⟩
  | .hbm, ⟨37, _⟩ => ⟨S512, .f32⟩
  | .hbm, ⟨38, _⟩ => ⟨S512, .f32⟩
  | .hbm, ⟨39, _⟩ => ⟨S512, .f32⟩
  | .hbm, ⟨40, _⟩ => ⟨S512, .f32⟩
  | .hbm, ⟨41, _⟩ => ⟨S512, .f32⟩
  | .hbm, ⟨42, _⟩ => ⟨S512, .f32⟩
  | .hbm, ⟨43, _⟩ => ⟨S1x512, .f32⟩
  | .hbm, ⟨44, _⟩ => ⟨S1x512, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S512, .f32⟩
  | .hbm, ⟨49, _⟩ => ⟨S512, .f32⟩
  | .hbm, ⟨50, _⟩ => ⟨S512, .f32⟩
  | .hbm, ⟨51, _⟩ => ⟨S512, .f32⟩
  | .hbm, ⟨52, _⟩ => ⟨S512, .f32⟩
  | .hbm, ⟨53, _⟩ => ⟨S1x512, .f32⟩
  | .hbm, ⟨54, _⟩ => ⟨S1x512, .f32⟩
  | .hbm, ⟨55, _⟩ => ⟨S_, .f32⟩
  | .hbm, ⟨56, _⟩ => ⟨S512, .f32⟩
  | .hbm, ⟨57, _⟩ => ⟨S512, .f32⟩
  | .hbm, ⟨58, _⟩ => ⟨S512, .f32⟩
  | .hbm, ⟨59, _⟩ => ⟨S512, .f32⟩
  | .hbm, ⟨60, _⟩ => ⟨S512, .f32⟩
  | .hbm, ⟨61, _⟩ => ⟨S512, .f32⟩
  | .hbm, ⟨62, _⟩ => ⟨S512, .f32⟩
  | .hbm, ⟨63, _⟩ => ⟨S1x512, .f32⟩
  | .hbm, ⟨64, _⟩ => ⟨S1x512, .f32⟩
  | .hbm, ⟨65, _⟩ => ⟨S512x512, .f32⟩
  | .hbm, ⟨66, _⟩ => ⟨S512x512, .f32⟩
  | .hbm, ⟨67, _⟩ => ⟨S512x512, .f32⟩
  | .hbm, ⟨68, _⟩ => ⟨S512x512, .f32⟩
  | .hbm, ⟨69, _⟩ => ⟨S32x1024x512, .f32⟩
  | .hbm, ⟨70, _⟩ => ⟨S32x1024x512, .f32⟩
  | .hbm, ⟨71, _⟩ => ⟨S4x8x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S512x512, .f32⟩
  | .local _ .vmem, ⟨3, _⟩ => ⟨S1x512, .f32⟩
  | .local _ .vmem, ⟨4, _⟩ => ⟨S1x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S1x512, .f32⟩
  | .local _ .vmem, ⟨10, _⟩ => ⟨S1x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S1x1024x512, .f32⟩
  | .local _ .vmem, ⟨15, _⟩ => ⟨S1x1024x512, .f32⟩
  | _, _ => ⟨S4x8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_1 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_2 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S512 : S_.BroadcastsInDim S512 (![] : Fin 0 → Fin S512.rank)
  shapeCasts_S512_S1x512 : S512.ShapeCasts S1x512
  transposes_S512x512_S512x512_1_0 : S512x512.Transposes [1, 0] S512x512
  shapeCasts_S4x8x1024x512_S32x1024x512 : S4x8x1024x512.ShapeCasts S32x1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S1024x512_o0_0_S1024x64 : S1024x512.Slices ![0, 0] S1024x64
  slices_S1024x512_o0_64_S1024x64 : S1024x512.Slices ![0, 64] S1024x64
  slices_S1024x512_o0_128_S1024x64 : S1024x512.Slices ![0, 128] S1024x64
  slices_S1024x512_o0_192_S1024x64 : S1024x512.Slices ![0, 192] S1024x64
  slices_S1024x512_o0_256_S1024x64 : S1024x512.Slices ![0, 256] S1024x64
  slices_S1024x512_o0_320_S1024x64 : S1024x512.Slices ![0, 320] S1024x64
  slices_S1024x512_o0_384_S1024x64 : S1024x512.Slices ![0, 384] S1024x64
  slices_S1024x512_o0_448_S1024x64 : S1024x512.Slices ![0, 448] S1024x64
  concatenates_S1024x64_S1024x64_S1024x64_S1024x64_S1024x64_S1024x64_S1024x64_S1024x64_S1024x512_d1 : Shape.Concatenates [S1024x64, S1024x64, S1024x64, S1024x64, S1024x64, S1024x64, S1024x64, S1024x64] S1024x512 1
  shapeCasts_S1024x512_S1x1024x512 : S1024x512.ShapeCasts S1x1024x512
  shapeCasts_S32x1024x512_S4x8x1024x512 : S32x1024x512.ShapeCasts S4x8x1024x512
  dot_S1024x512_S512x512_S1024x512_1_0_0_1_n_n_wf : DotDims.WF S1024x512 S512x512 S1024x512 [1] [0] [0] [1] [] []
  dot_S1024x64_S1024x64_S64x64_0_0_1_1_n_n_wf : DotDims.WF S1024x64 S1024x64 S64x64 [0] [0] [1] [1] [] []
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S32x1024x512.size a
  hwx0_0 : ∀ i : grid0.Coords, EltTy.bits .f32 = 32 ∨ (Rect.block (s := S32x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .f32 = 32 ∨ (Rect.block (s := S512x512) S512x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1024x512.size a ≤ S32x1024x512.size a
  hwx0_13 : ∀ i : grid0.Coords, EltTy.bits .f32 = 32 ∨ (Rect.block (s := S32x1024x512) S1x1024x512.size (cc0_transform_13 i) (hinb0_13 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x64_S1024x64_S64x64_0_0_1_1_n_n : DotDims S1024x64 S1024x64 S64x64 where
  lhsContracting := [0]
  rhsContracting := [0]
  lhsNonContracting := [1]
  rhsNonContracting := [1]
  lhsBatch := []
  rhsBatch := []
  wf := dot_S1024x64_S1024x64_S64x64_0_0_1_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_v40) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v38) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v39) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v34) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v35) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v41) S1x1024x512.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4x8x1024x512 : Shape := ⟨4, ![4, 8, 1024, 512]⟩
abbrev S512x512 : Shape := ⟨2, ![512, 512]⟩
abbrev S512 : Shape := ⟨1, ![512]⟩
abbrev S1x1x1x512 : Shape := ⟨4, ![1, 1, 1, 512]⟩
abbrev S_ : Shape := ⟨0, ![]⟩
abbrev S4x8x1024x8x64 : Shape := ⟨5, ![4, 8, 1024, 8, 64]⟩
abbrev S4x8x8x1024x64 : Shape := ⟨5, ![4, 8, 8, 1024, 64]⟩
abbrev S4x8x8x64x64 : Shape := ⟨5, ![4, 8, 8, 64, 64]⟩

abbrev nBuf : Space → Nat
  | .hbm => 110
  | .vmem => 0
  | .smem => 0
  | _ => 0

abbrev bufTy : (tb : Table) → Fin (tcTables nBuf tb) → BufTy
  | .hbm, ⟨0, _⟩ => ⟨S4x8x1024x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512x512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S4x8x1024x512, .f32⟩
  | .hbm, ⟨26, _⟩ => ⟨S1x1x1x512, .f32⟩
  | .hbm, ⟨27, _⟩ => ⟨S4x8x1024x512, .f32⟩
  | .hbm, ⟨28, _⟩ => ⟨S4x8x1024x512, .f32⟩
  | .hbm, ⟨29, _⟩ => ⟨S1x1x1x512, .f32⟩
  | .hbm, ⟨30, _⟩ => ⟨S4x8x1024x512, .f32⟩
  | .hbm, ⟨31, _⟩ => ⟨S4x8x1024x512, .f32⟩
  | .hbm, ⟨32, _⟩ => ⟨S_, .f32⟩
  | .hbm, ⟨33, _⟩ => ⟨S512, .f32⟩
  | .hbm, ⟨34, _⟩ => ⟨S512, .f32⟩
  | .hbm, ⟨35, _⟩ => ⟨S512, .f32⟩
  | .hbm, ⟨36, _⟩ => ⟨S512, .f32⟩
  | .hbm, ⟨37, _⟩ => ⟨S1x1x1x512, .f32⟩
  | .hbm, ⟨38, _⟩ => ⟨S4x8x1024x512, .f32⟩
  | .hbm, ⟨39, _⟩ => ⟨S4x8x1024x512, .f32⟩
  | .hbm, ⟨40, _⟩ => ⟨S1x1x1x512, .f32⟩
  | .hbm, ⟨41, _⟩ => ⟨S4x8x1024x512, .f32⟩
  | .hbm, ⟨42, _⟩ => ⟨S4x8x1024x512, .f32⟩
  | .hbm, ⟨43, _⟩ => ⟨S4x8x1024x8x64, .f32⟩
  | .hbm, ⟨44, _⟩ => ⟨S4x8x8x1024x64, .f32⟩
  | .hbm, ⟨45, _⟩ => ⟨S4x8x1024x512, .f32⟩
  | .hbm, ⟨46, _⟩ => ⟨S1x1x1x512, .f32⟩
  | .hbm, ⟨47, _⟩ => ⟨S4x8x1024x512, .f32⟩
  | .hbm, ⟨48, _⟩ => ⟨S4x8x1024x512, .f32⟩
  | .hbm, ⟨49, _⟩ => ⟨S1x1x1x512, .f32⟩
  | .hbm, ⟨50, _⟩ => ⟨S4x8x1024x512, .f32⟩
  | .hbm, ⟨51, _⟩ => ⟨S4x8x1024x512, .f32⟩
  | .hbm, ⟨52, _⟩ => ⟨S_, .f32⟩
  | .hbm, ⟨53, _⟩ => ⟨S512, .f32⟩
  | .hbm, ⟨54, _⟩ => ⟨S512, .f32⟩
  | .hbm, ⟨55, _⟩ => ⟨S512, .f32⟩
  | .hbm, ⟨56, _⟩ => ⟨S512, .f32⟩
  | .hbm, ⟨57, _⟩ => ⟨S1x1x1x512, .f32⟩
  | .hbm, ⟨58, _⟩ => ⟨S4x8x1024x512, .f32⟩
  | .hbm, ⟨59, _⟩ => ⟨S4x8x1024x512, .f32⟩
  | .hbm, ⟨60, _⟩ => ⟨S1x1x1x512, .f32⟩
  | .hbm, ⟨61, _⟩ => ⟨S4x8x1024x512, .f32⟩
  | .hbm, ⟨62, _⟩ => ⟨S4x8x1024x512, .f32⟩
  | .hbm, ⟨63, _⟩ => ⟨S4x8x1024x8x64, .f32⟩
  | .hbm, ⟨64, _⟩ => ⟨S4x8x8x1024x64, .f32⟩
  | .hbm, ⟨65, _⟩ => ⟨S4x8x1024x512, .f32⟩
  | .hbm, ⟨66, _⟩ => ⟨S1x1x1x512, .f32⟩
  | .hbm, ⟨67, _⟩ => ⟨S4x8x1024x512, .f32⟩
  | .hbm, ⟨68, _⟩ => ⟨S4x8x1024x512, .f32⟩
  | .hbm, ⟨69, _⟩ => ⟨S1x1x1x512, .f32⟩
  | .hbm, ⟨70, _⟩ => ⟨S4x8x1024x512, .f32⟩
  | .hbm, ⟨71, _⟩ => ⟨S4x8x1024x512, .f32⟩
  | .hbm, ⟨72, _⟩ => ⟨S_, .f32⟩
  | .hbm, ⟨73, _⟩ => ⟨S512, .f32⟩
  | .hbm, ⟨74, _⟩ => ⟨S512, .f32⟩
  | .hbm, ⟨75, _⟩ => ⟨S512, .f32⟩
  | .hbm, ⟨76, _⟩ => ⟨S512, .f32⟩
  | .hbm, ⟨77, _⟩ => ⟨S1x1x1x512, .f32⟩
  | .hbm, ⟨78, _⟩ => ⟨S4x8x1024x512, .f32⟩
  | .hbm, ⟨79, _⟩ => ⟨S4x8x1024x512, .f32⟩
  | .hbm, ⟨80, _⟩ => ⟨S1x1x1x512, .f32⟩
  | .hbm, ⟨81, _⟩ => ⟨S4x8x1024x512, .f32⟩
  | .hbm, ⟨82, _⟩ => ⟨S4x8x1024x512, .f32⟩
  | .hbm, ⟨83, _⟩ => ⟨S4x8x1024x8x64, .f32⟩
  | .hbm, ⟨84, _⟩ => ⟨S4x8x8x1024x64, .f32⟩
  | .hbm, ⟨85, _⟩ => ⟨S4x8x8x64x64, .f32⟩
  | .hbm, ⟨86, _⟩ => ⟨S_, .f32⟩
  | .hbm, ⟨87, _⟩ => ⟨S4x8x8x64x64, .f32⟩
  | .hbm, ⟨88, _⟩ => ⟨S4x8x8x64x64, .f32⟩
  | .hbm, ⟨89, _⟩ => ⟨S4x8x8x1024x64, .f32⟩
  | .hbm, ⟨90, _⟩ => ⟨S4x8x1024x8x64, .f32⟩
  | .hbm, ⟨91, _⟩ => ⟨S4x8x1024x512, .f32⟩
  | .hbm, ⟨92, _⟩ => ⟨S4x8x1024x512, .f32⟩
  | .hbm, ⟨93, _⟩ => ⟨S1x1x1x512, .f32⟩
  | .hbm, ⟨94, _⟩ => ⟨S4x8x1024x512, .f32⟩
  | .hbm, ⟨95, _⟩ => ⟨S4x8x1024x512, .f32⟩
  | .hbm, ⟨96, _⟩ => ⟨S1x1x1x512, .f32⟩
  | .hbm, ⟨97, _⟩ => ⟨S4x8x1024x512, .f32⟩
  | .hbm, ⟨98, _⟩ => ⟨S4x8x1024x512, .f32⟩
  | .hbm, ⟨99, _⟩ => ⟨S_, .f32⟩
  | .hbm, ⟨100, _⟩ => ⟨S512, .f32⟩
  | .hbm, ⟨101, _⟩ => ⟨S512, .f32⟩
  | .hbm, ⟨102, _⟩ => ⟨S512, .f32⟩
  | .hbm, ⟨103, _⟩ => ⟨S512, .f32⟩
  | .hbm, ⟨104, _⟩ => ⟨S1x1x1x512, .f32⟩
  | .hbm, ⟨105, _⟩ => ⟨S4x8x1024x512, .f32⟩
  | .hbm, ⟨106, _⟩ => ⟨S4x8x1024x512, .f32⟩
  | .hbm, ⟨107, _⟩ => ⟨S1x1x1x512, .f32⟩
  | .hbm, ⟨108, _⟩ => ⟨S4x8x1024x512, .f32⟩
  | .hbm, ⟨109, _⟩ => ⟨S4x8x1024x512, .f32⟩
  | _, _ => ⟨S4x8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_0 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_1 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_2 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_3 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]

class Facts₀ : Prop where
  bcast_S512_S1x1x1x512_3 : S512.BroadcastsInDim S1x1x1x512 (![3] : Fin 1 → Fin S1x1x1x512.rank)
  bcast_S1x1x1x512_S4x8x1024x512_0_1_2_3 : S1x1x1x512.BroadcastsInDim S4x8x1024x512 (![0, 1, 2, 3] : Fin 4 → Fin S4x8x1024x512.rank)
  bcast_S_S512 : S_.BroadcastsInDim S512 (![] : Fin 0 → Fin S512.rank)
  shapeCasts_S4x8x1024x512_S4x8x1024x8x64 : S4x8x1024x512.ShapeCasts S4x8x1024x8x64
  transposes_S4x8x1024x8x64_S4x8x8x1024x64_0_1_3_2_4 : S4x8x1024x8x64.Transposes [0, 1, 3, 2, 4] S4x8x8x1024x64
  bcast_S_S4x8x8x64x64 : S_.BroadcastsInDim S4x8x8x64x64 (![] : Fin 0 → Fin S4x8x8x64x64.rank)
  transposes_S4x8x8x1024x64_S4x8x1024x8x64_0_1_3_2_4 : S4x8x8x1024x64.Transposes [0, 1, 3, 2, 4] S4x8x1024x8x64
  shapeCasts_S4x8x1024x8x64_S4x8x1024x512 : S4x8x1024x8x64.ShapeCasts S4x8x1024x512
  dot_S4x8x1024x512_S512x512_S4x8x1024x512_3_1_012_0_n_n_wf : DotDims.WF S4x8x1024x512 S512x512 S4x8x1024x512 [3] [1] [0, 1, 2] [0] [] []
  dot_S4x8x8x1024x64_S4x8x8x1024x64_S4x8x8x64x64_3_3_4_4_012_012_wf : DotDims.WF S4x8x8x1024x64 S4x8x8x1024x64 S4x8x8x64x64 [3] [3] [4] [4] [0, 1, 2] [0, 1, 2]
  dot_S4x8x8x1024x64_S4x8x8x64x64_S4x8x8x1024x64_4_3_3_4_012_012_wf : DotDims.WF S4x8x8x1024x64 S4x8x8x64x64 S4x8x8x1024x64 [4] [3] [3] [4] [0, 1, 2] [0, 1, 2]

variable [Facts₀]

def dot_S4x8x1024x512_S512x512_S4x8x1024x512_3_1_012_0_n_n : DotDims S4x8x1024x512 S512x512 S4x8x1024x512 where
  lhsContracting := [3]
  rhsContracting := [1]
  lhsNonContracting := [0, 1, 2]
  rhsNonContracting := [0]
  lhsBatch := []
  rhsBatch := []
  wf := dot_S4x8x1024x512_S512x512_S4x8x1024x512_3_1_012_0_n_n_wf
def dot_S4x8x8x1024x64_S4x8x8x1024x64_S4x8x8x64x64_3_3_4_4_012_012 : DotDims S4x8x8x1024x64 S4x8x8x1024x64 S4x8x8x64x64 where
  lhsContracting := [3]
  rhsContracting := [3]
  lhsNonContracting := [4]
  rhsNonContracting := [4]
  lhsBatch := [0, 1, 2]
  rhsBatch := [0, 1, 2]
  wf := dot_S4x8x8x1024x64_S4x8x8x1024x64_S4x8x8x64x64_3_3_4_4_012_012_wf
def dot_S4x8x8x1024x64_S4x8x8x64x64_S4x8x8x1024x64_4_3_3_4_012_012 : DotDims S4x8x8x1024x64 S4x8x8x64x64 S4x8x8x1024x64 where
  lhsContracting := [4]
  rhsContracting := [3]
  lhsNonContracting := [3]
  rhsNonContracting := [4]
  lhsBatch := [0, 1, 2]
  rhsBatch := [0, 1, 2]
  wf := dot_S4x8x8x1024x64_S4x8x8x64x64_S4x8x8x1024x64_4_3_3_4_012_012_wf

class Facts : Prop extends Facts₀ where

variable [Facts]
-- ==== Proof.Spec.lean ====
/-
  The mathematics of the certificate, over the reals, with no program in sight.

  One linear layer followed by an eval-mode batch norm, per output channel `c`:
  with the per-channel scale `s c = g c / sqrt (var c + eps)` the reference computes
  `((sum_j z n j * W c j) + b c - mu c) * s c + beta c`, while the kernel folds bias and mean into a
  per-channel shift `t c = (b c - mu c) * s c + beta c` beforehand and computes
  `(sum_j z n j * W c j) * s c + t c`.  Over the reals the two are equal by distributivity (`linbnKer_eq_linbnRef`);
  over the extended reals they are not (an infinite scale separates them), which is why the
  certificate first shows that every value in sight is a real.

  The linear-attention core works head by head: channel `c = 64 * h + e` belongs to head `h = c / 64`;
  `kv h d e = (sum_n k n (64 h + d) * v n (64 h + e)) / 1024` and
  `y n (64 h + e) = sum_d q n (64 h + d) * kv h d e`.
  The whole result of one `(t, b)` slab is `outSlab`: the output layer applied to the attention of the
  three input layers of that slab.
-/
import Idealize.ShloMosaic.PureOps.Ideal

noncomputable section

namespace Cert.Spec

open Finset

/-- The batch-norm epsilon: the real that the f32 nearest to `1e-5` denotes, `10995116 / 2^40`. -/
def eps : ℝ := 10995116 / 2 ^ 40

theorem eps_pos : 0 < eps := by unfold eps; positivity

/-- The parameters of one linear layer with its batch norm: weight `W c j` (output channel first, as
    `nn.Linear` stores it), bias, and the norm's gain, offset, running mean and running variance. -/
structure LinBN where
  W : Fin 512 → Fin 512 → ℝ
  b : Fin 512 → ℝ
  g : Fin 512 → ℝ
  beta : Fin 512 → ℝ
  mu : Fin 512 → ℝ
  var : Fin 512 → ℝ

/-- The per-channel scale `g / sqrt (var + eps)`. -/
def scale (P : LinBN) (c : Fin 512) : ℝ := P.g c * (Real.sqrt (P.var c + eps))⁻¹

/-- The per-channel shift the kernel folds bias, mean and offset into. -/
def shift (P : LinBN) (c : Fin 512) : ℝ := (P.b c - P.mu c) * scale P c + P.beta c

/-- The plain matrix product with the transposed weight: `sum_j z n j * W c j`. -/
def lin (P : LinBN) (z : Fin 1024 → Fin 512 → ℝ) (n : Fin 1024) (c : Fin 512) : ℝ :=
  ∑ j : Fin 512, z n j * P.W c j

/-- Linear layer and batch norm as the reference computes them. -/
def linbnRef (P : LinBN) (z : Fin 1024 → Fin 512 → ℝ) (n : Fin 1024) (c : Fin 512) : ℝ :=
  (lin P z n c + P.b c - P.mu c) * scale P c + P.beta c

/-- Linear layer and batch norm as the kernel computes them, over the folded scale and shift. -/
def linbnKer (P : LinBN) (z : Fin 1024 → Fin 512 → ℝ) (n : Fin 1024) (c : Fin 512) : ℝ :=
  lin P z n c * scale P c + shift P c

/-- Distributivity over the reals: the folded form is the reference's form. -/
theorem linbnKer_eq_linbnRef (P : LinBN) (z : Fin 1024 → Fin 512 → ℝ) :
    linbnKer P z = linbnRef P z := by
  funext n c
  unfold linbnKer linbnRef shift
  ring

/-- Channel `64 * h + d` of head `h`. -/
def col (h : Fin 8) (d : Fin 64) : Fin 512 := ⟨64 * h.val + d.val, by have := h.isLt; have := d.isLt; omega⟩

/-- The head a channel belongs to, and its place inside the head. -/
def headOf (c : Fin 512) : Fin 8 := ⟨c.val / 64, by have := c.isLt; omega⟩
def within (c : Fin 512) : Fin 64 := ⟨c.val % 64, Nat.mod_lt _ (by decide)⟩

theorem col_headOf_within (c : Fin 512) : col (headOf c) (within c) = c := by
  apply Fin.ext; simp only [col, headOf, within]; have := c.isLt; omega

theorem headOf_col (h : Fin 8) (d : Fin 64) : headOf (col h d) = h := by
  apply Fin.ext; simp only [col, headOf]; have := h.isLt; have := d.isLt; omega

theorem within_col (h : Fin 8) (d : Fin 64) : within (col h d) = d := by
  apply Fin.ext; simp only [col, within]; have := h.isLt; have := d.isLt; omega

/-- Keys against values of one head, averaged over the 1024 tokens. -/
def kv (k v : Fin 1024 → Fin 512 → ℝ) (h : Fin 8) (d e : Fin 64) : ℝ :=
  (∑ n : Fin 1024, k n (col h d) * v n (col h e)) / 1024

/-- Queries against that head's key-value matrix. -/
def attnHead (q k v : Fin 1024 → Fin 512 → ℝ) (n : Fin 1024) (h : Fin 8) (e : Fin 64) : ℝ :=
  ∑ d : Fin 64, q n (col h d) * kv k v h d e

/-- The heads laid side by side again: channel `c` reads head `c / 64` at `c % 64`. -/
def attn (q k v : Fin 1024 → Fin 512 → ℝ) (n : Fin 1024) (c : Fin 512) : ℝ :=
  attnHead q k v n (headOf c) (within c)

/-- One slab's result as the reference computes it. -/
def outSlab (Pq Pk Pv Pp : LinBN) (x : Fin 1024 → Fin 512 → ℝ) : Fin 1024 → Fin 512 → ℝ :=
  linbnRef Pp (attn (linbnRef Pq x) (linbnRef Pk x) (linbnRef Pv x))

/-- One slab's result as the kernel computes it. -/
def outSlabKer (Pq Pk Pv Pp : LinBN) (x : Fin 1024 → Fin 512 → ℝ) : Fin 1024 → Fin 512 → ℝ :=
  linbnKer Pp (attn (linbnKer Pq x) (linbnKer Pk x) (linbnKer Pv x))

theorem outSlabKer_eq_outSlab (Pq Pk Pv Pp : LinBN) (x : Fin 1024 → Fin 512 → ℝ) :
    outSlabKer Pq Pk Pv Pp x = outSlab Pq Pk Pv Pp x := by
  unfold outSlabKer outSlab
  rw [linbnKer_eq_linbnRef, linbnKer_eq_linbnRef, linbnKer_eq_linbnRef, linbnKer_eq_linbnRef]

/-! ## Reals inside the extended reals -/

/-- A finite sum of reals, read in the extended reals, is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Spec

end
-- ==== Proof.Layer.lean ====
/-
  What it means for the six argument arrays of one layer (weight, bias, gain, offset, running mean,
  running variance) to be readings of reals with a nonnegative variance: the form in which the
  precondition (every input finite, every variance nonnegative) is consumed by both programs' value proofs.
-/
import Idealize.ShloMosaic.Lib.ValueIdx
import proofs.«148636_j56599079026971_1_alg».proof.Proof.Spec

noncomputable section

namespace Cert.Spec

open Idealize.ShloMosaic Idealize.ShloMosaic.ValueIdx

/-- The layer's six arrays are the readings of `P`'s reals, and `P`'s variance is nonnegative. -/
structure LayerAre (P : LinBN) (W : (⟨2, ![512, 512]⟩ : Shape).Idx → EReal)
    (b g beta mu var : (⟨1, ![512]⟩ : Shape).Idx → EReal) : Prop where
  hW : ∀ c j : Fin 512, W (ix2 c j) = (P.W c j : EReal)
  hb : ∀ c : Fin 512, b (ix1 c) = (P.b c : EReal)
  hg : ∀ c : Fin 512, g (ix1 c) = (P.g c : EReal)
  hbeta : ∀ c : Fin 512, beta (ix1 c) = (P.beta c : EReal)
  hmu : ∀ c : Fin 512, mu (ix1 c) = (P.mu c : EReal)
  hvar : ∀ c : Fin 512, var (ix1 c) = (P.var c : EReal)
  var_nonneg : ∀ c : Fin 512, 0 ≤ P.var c

/-- The input tensor is the reading of `x`. -/
def InputIs (x : Fin 4 → Fin 8 → Fin 1024 → Fin 512 → ℝ) (a : (⟨4, ![4, 8, 1024, 512]⟩ : Shape).Idx → EReal) : Prop :=
  ∀ (t : Fin 4) (b : Fin 8) (n : Fin 1024) (j : Fin 512), a (ix4 t b n j) = (x t b n j : EReal)

/-- Slab `i = 8 t + b` of the input, as the kernel's reshape to 32 slabs numbers them. -/
def slabOf (x : Fin 4 → Fin 8 → Fin 1024 → Fin 512 → ℝ) (i : Fin 32) : Fin 1024 → Fin 512 → ℝ :=
  x ⟨i.val / 8, by have := i.isLt; omega⟩ ⟨i.val % 8, Nat.mod_lt _ (by decide)⟩

theorem slabOf_mk (x : Fin 4 → Fin 8 → Fin 1024 → Fin 512 → ℝ) (t : Fin 4) (b : Fin 8) :
    slabOf x ⟨8 * t.val + b.val, by have := t.isLt; have := b.isLt; omega⟩ = x t b := by
  unfold slabOf
  congr 1
  · apply Fin.ext; show (8 * t.val + b.val) / 8 = t.val; have := b.isLt; omega
  · apply Fin.ext; show (8 * t.val + b.val) % 8 = b.val; have := b.isLt; omega

end Cert.Spec

end
-- ==== Proof.Finite.lean ====
/-
  The precondition read back: if every entry of every argument array is finite (its absolute value
  below +infinity) and every entry of the four variance arrays is at least 0, then the arrays are the
  readings of real arrays, and those variances are nonnegative reals.
-/
import proofs.«148636_j56599079026971_1_alg».proof.Pre_finite_inputs
import proofs.«148636_j56599079026971_1_alg».proof.Proof.Layer
import Idealize.ShloMosaic.Lib.ReduceAll
import Idealize.ShloMosaic.Lib.ValueIdx
import Idealize.ShloMosaic.PureOps.Ideal.Laws

noncomputable section

namespace Cert.Pre_finite_inputs.Hand

open Cert.Pre_finite_inputs Cert.Spec
open Idealize.ShloMosaic Idealize.ShloMosaic.ValueIdx

variable [Cert.Pre_finite_inputs.Facts]

/-- The scalar shape has one index. -/
local instance subsingletonScalarIdx : Subsingleton S_.Idx := ⟨fun a b => funext fun d => d.elim0⟩

/-- An extended real whose absolute value max x (-x) lies strictly below +∞ (the value the word
    0x7F800000 denotes) is neither ⊤ nor ⊥, hence the reading of a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

/-- A real whose reading compares ≥ the zero word is nonnegative. -/
theorem nonneg_of_oge (r : ℝ)
    (h : Ideal.cmp .oge (r : EReal) (Ideal.ofBits .f32 0x00000000#32) = 1#1) : 0 ≤ r := by
  rw [Ideal.ofBits_zero_f32] at h
  by_contra hc
  exact absurd h (by simp [Ideal.cmp, hc])

/-- Of any shape: if the conjunction over all entries of |a i| < +∞ holds, every entry is the reading of a real. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1) (i : s.Idx) : ∃ r : ℝ, a i = (r : EReal) :=
  real_of_abs_lt (a i) (Host.reduce_andi_all _ _ hr hu ix0 e i)

/-- Of any shape: if the conjunction over all entries of a i ≥ 0 holds, every real an entry reads is nonnegative. -/
theorem all_nonneg {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .oge a (broadcastInDim s ![] hb (constant (F := Ideal) S_ .f32 0x00000000#32)))
          (constantI S_ 1 1#1) hr hu ix0 = 1#1) (i : s.Idx) (r : ℝ) (hr' : a i = (r : EReal)) : 0 ≤ r :=
  nonneg_of_oge r (hr' ▸ Host.reduce_andi_all _ _ hr hu ix0 e i)

/-- The reading of a real is the reading of its own real part. -/
theorem eq_coe_toReal {x : EReal} (h : ∃ r : ℝ, x = (r : EReal)) : x = ((x.toReal : ℝ) : EReal) := by
  obtain ⟨r, rfl⟩ := h
  rw [EReal.toReal_coe]

/-- One layer: six arrays of readings of reals, the last with nonnegative entries, are the readings of the
    layer whose parameters are the entries' real parts, and its variance is nonnegative. -/
theorem layerAre_of_real (W : (⟨2, ![512, 512]⟩ : Shape).Idx → EReal)
    (b g beta mu var : (⟨1, ![512]⟩ : Shape).Idx → EReal)
    (hW : ∀ i, ∃ r : ℝ, W i = (r : EReal)) (hb : ∀ i, ∃ r : ℝ, b i = (r : EReal))
    (hg : ∀ i, ∃ r : ℝ, g i = (r : EReal)) (hbeta : ∀ i, ∃ r : ℝ, beta i = (r : EReal))
    (hmu : ∀ i, ∃ r : ℝ, mu i = (r : EReal)) (hvar : ∀ i, ∃ r : ℝ, var i = (r : EReal))
    (hnn : ∀ i (r : ℝ), var i = (r : EReal) → 0 ≤ r) :
    ∃ P : LinBN, LayerAre P W b g beta mu var :=
  ⟨⟨fun c j => (W (ix2 c j)).toReal, fun c => (b (ix1 c)).toReal, fun c => (g (ix1 c)).toReal,
      fun c => (beta (ix1 c)).toReal, fun c => (mu (ix1 c)).toReal, fun c => (var (ix1 c)).toReal⟩,
    ⟨fun c j => eq_coe_toReal (hW _), fun c => eq_coe_toReal (hb _), fun c => eq_coe_toReal (hg _),
      fun c => eq_coe_toReal (hbeta _), fun c => eq_coe_toReal (hmu _), fun c => eq_coe_toReal (hvar _),
      fun c => hnn _ _ (eq_coe_toReal (hvar _))⟩⟩

/-- The precondition's arrays are readings of reals, with nonnegative variances. -/
theorem reals_of_pre (a0 : FVec Ideal S4x8x1024x512 .f32) (a1 : FVec Ideal S512x512 .f32) (a2 a3 a4 a5 a6 : FVec Ideal S512 .f32) (a7 : FVec Ideal S512x512 .f32) (a8 a9 a10 a11 a12 : FVec Ideal S512 .f32) (a13 : FVec Ideal S512x512 .f32) (a14 a15 a16 a17 a18 : FVec Ideal S512 .f32) (a19 : FVec Ideal S512x512 .f32) (a20 a21 a22 a23 a24 : FVec Ideal S512 .f32)
    (h : Cert.Pre_finite_inputs.fn (F := Ideal) a0 a1 a2 a3 a4 a5 a6 a7 a8 a9 a10 a11 a12 a13 a14 a15 a16 a17 a18 a19 a20 a21 a22 a23 a24 = fun _ => 1#1) :
    ∃ (x : Fin 4 → Fin 8 → Fin 1024 → Fin 512 → ℝ) (Pq Pk Pv Pp : LinBN),
      InputIs x a0 ∧ LayerAre Pq a1 a2 a3 a4 a5 a6 ∧ LayerAre Pk a7 a8 a9 a10 a11 a12
        ∧ LayerAre Pv a13 a14 a15 a16 a17 a18 ∧ LayerAre Pp a19 a20 a21 a22 a23 a24 := by
  -- the precondition at its one index is a conjunction of 29 scalars: for each of the 25 arrays "all entries finite",
  -- then for each of the four variance arrays "all entries ≥ 0"
  have h0 := congrFun h ValueIdx.ix0
  dsimp only [fn, fn_part1, fn_part2, fn_part3, fn_part4, fn_part5, fn_part6, fn_part7, fn_part8] at h0
  simp only [Idealize.ShloMosaic.andi, IntOp.andi_eq_one] at h0
  obtain ⟨⟨⟨⟨⟨⟨⟨⟨⟨⟨⟨⟨⟨⟨⟨⟨⟨⟨⟨⟨⟨⟨⟨⟨⟨⟨⟨⟨f0, f1⟩, f2⟩, f3⟩, f4⟩, f5⟩, f6⟩, f7⟩, f8⟩, f9⟩, f10⟩, f11⟩, f12⟩, f13⟩, f14⟩, f15⟩, f16⟩, f17⟩, f18⟩, f19⟩, f20⟩, f21⟩, f22⟩, f23⟩, f24⟩, g6⟩, g12⟩, g18⟩, g24⟩ := h0
  obtain ⟨Pq, hq⟩ := layerAre_of_real a1 a2 a3 a4 a5 a6 (all_real a1 _ _ _ f1) (all_real a2 _ _ _ f2)
    (all_real a3 _ _ _ f3) (all_real a4 _ _ _ f4) (all_real a5 _ _ _ f5) (all_real a6 _ _ _ f6) (all_nonneg a6 _ _ _ g6)
  obtain ⟨Pk, hk⟩ := layerAre_of_real a7 a8 a9 a10 a11 a12 (all_real a7 _ _ _ f7) (all_real a8 _ _ _ f8)
    (all_real a9 _ _ _ f9) (all_real a10 _ _ _ f10) (all_real a11 _ _ _ f11) (all_real a12 _ _ _ f12) (all_nonneg a12 _ _ _ g12)
  obtain ⟨Pv, hv⟩ := layerAre_of_real a13 a14 a15 a16 a17 a18 (all_real a13 _ _ _ f13) (all_real a14 _ _ _ f14)
    (all_real a15 _ _ _ f15) (all_real a16 _ _ _ f16) (all_real a17 _ _ _ f17) (all_real a18 _ _ _ f18) (all_nonneg a18 _ _ _ g18)
  obtain ⟨Pp, hp⟩ := layerAre_of_real a19 a20 a21 a22 a23 a24 (all_real a19 _ _ _ f19) (all_real a20 _ _ _ f20)
    (all_real a21 _ _ _ f21) (all_real a22 _ _ _ f22) (all_real a23 _ _ _ f23) (all_real a24 _ _ _ f24) (all_nonneg a24 _ _ _ g24)
  exact ⟨fun t b n j => (a0 (ix4 t b n j)).toReal, Pq, Pk, Pv, Pp,
    fun t b n j => eq_coe_toReal (all_real a0 _ _ _ f0 _), hq, hk, hv, hp⟩

end Cert.Pre_finite_inputs.Hand

end
-- ==== Proof.Reals.lean ====
/-
  Reals read inside the extended reals: each arithmetic form that either program evaluates on
  finite inputs is the reading of the corresponding real expression of the specification.
  These are the only places where finiteness is used: a sum of products of reals is a real, the
  reciprocal square root of a positive real is a real, and so every scale, shift, layer output,
  key-value average and attention output is a real.
-/
import Idealize.ShloMosaic.PureOps.Ideal
import proofs.«148636_j56599079026971_1_alg».proof.Proof.Spec

noncomputable section

namespace Cert.Reals

open Idealize.ShloMosaic Cert.Spec Finset

/-- The reciprocal square root of a positive real is the real `1 / sqrt r`. -/
theorem rsqrt_coe_pos {r : ℝ} (h : 0 < r) :
    Ideal.rsqrt (r : EReal) = (((Real.sqrt r)⁻¹ : ℝ) : EReal) := by
  rw [Ideal.rsqrt_coe, if_neg (not_lt.mpr h.le), if_neg h.ne']

/-- With a nonnegative variance the per-channel scale is a real (`var + eps > 0`). -/
theorem scale_coe (P : LinBN) (hv : ∀ c, 0 ≤ P.var c) (c : Fin 512) :
    (P.g c : EReal) * Ideal.rsqrt ((P.var c : EReal) + (eps : EReal)) = ((scale P c : ℝ) : EReal) := by
  have hpos : 0 < P.var c + eps := add_pos_of_nonneg_of_pos (hv c) eps_pos
  rw [← EReal.coe_add, rsqrt_coe_pos hpos, ← EReal.coe_mul]
  rfl

/-- The folded shift over a real scale is a real. -/
theorem shift_coe (P : LinBN) (c : Fin 512) :
    ((P.b c : EReal) - (P.mu c : EReal)) * ((scale P c : ℝ) : EReal) + (P.beta c : EReal)
      = ((shift P c : ℝ) : EReal) := by
  rw [← EReal.coe_sub, ← EReal.coe_mul, ← EReal.coe_add]
  rfl

/-- A row of reals against a weight row of reals. -/
theorem lin_coe (P : LinBN) (z : Fin 1024 → Fin 512 → ℝ) (n : Fin 1024) (c : Fin 512) :
    ∑ k : Fin 512, (z n k : EReal) * (P.W c k : EReal) = ((lin P z n c : ℝ) : EReal) := by
  unfold lin
  rw [coe_sum]
  exact Finset.sum_congr rfl fun k _ => (EReal.coe_mul _ _).symm

/-- The reference's layer on reals, evaluated in the extended reals, is the reading of `linbnRef`. -/
theorem linbnRef_coe (P : LinBN) (hv : ∀ c, 0 ≤ P.var c) (z : Fin 1024 → Fin 512 → ℝ) (n : Fin 1024) (c : Fin 512) :
    ((∑ k : Fin 512, (z n k : EReal) * (P.W c k : EReal)) + (P.b c : EReal) - (P.mu c : EReal))
        * ((P.g c : EReal) * Ideal.rsqrt ((P.var c : EReal) + (eps : EReal))) + (P.beta c : EReal)
      = ((linbnRef P z n c : ℝ) : EReal) := by
  rw [lin_coe, scale_coe P hv, ← EReal.coe_add, ← EReal.coe_sub, ← EReal.coe_mul, ← EReal.coe_add]
  rfl

/-- The kernel's layer over the folded scale and shift is the reading of `linbnKer`. -/
theorem linbnKer_coe (P : LinBN) (z : Fin 1024 → Fin 512 → ℝ) (n : Fin 1024) (c : Fin 512) :
    (∑ k : Fin 512, (z n k : EReal) * (P.W c k : EReal)) * ((scale P c : ℝ) : EReal) + ((shift P c : ℝ) : EReal)
      = ((linbnKer P z n c : ℝ) : EReal) := by
  rw [lin_coe, ← EReal.coe_mul, ← EReal.coe_add]
  rfl

/-- Keys against values over the tokens: a sum of products of reals. -/
theorem kvsum_coe (k v : Fin 1024 → Fin 512 → ℝ) (h : Fin 8) (d e : Fin 64) :
    ∑ n : Fin 1024, (k n (col h d) : EReal) * (v n (col h e) : EReal)
      = ((∑ n : Fin 1024, k n (col h d) * v n (col h e) : ℝ) : EReal) := by
  rw [coe_sum]
  exact Finset.sum_congr rfl fun n _ => (EReal.coe_mul _ _).symm

/-- The reference divides the sum by `1024`. -/
theorem kv_coe_div (k v : Fin 1024 → Fin 512 → ℝ) (h : Fin 8) (d e : Fin 64) :
    Ideal.div (∑ n : Fin 1024, (k n (col h d) : EReal) * (v n (col h e) : EReal)) ((1024 : ℝ) : EReal)
      = ((kv k v h d e : ℝ) : EReal) := by
  rw [kvsum_coe, Ideal.div_coe (by norm_num : (1024 : ℝ) ≠ 0), ← EReal.coe_mul]
  congr 1
  unfold kv
  ring

/-- The kernel multiplies the sum by `1/1024`. -/
theorem kv_coe_mul (k v : Fin 1024 → Fin 512 → ℝ) (h : Fin 8) (d e : Fin 64) :
    (∑ n : Fin 1024, (k n (col h d) : EReal) * (v n (col h e) : EReal)) * ((1 / 1024 : ℝ) : EReal)
      = ((kv k v h d e : ℝ) : EReal) := by
  rw [kvsum_coe, ← EReal.coe_mul]
  congr 1
  unfold kv
  ring

/-- Queries of one head against its key-value matrix. -/
theorem attnHead_coe (q k v : Fin 1024 → Fin 512 → ℝ) (n : Fin 1024) (h : Fin 8) (e : Fin 64) :
    ∑ d : Fin 64, (q n (col h d) : EReal) * ((kv k v h d e : ℝ) : EReal)
      = ((attnHead q k v n h e : ℝ) : EReal) := by
  unfold attnHead
  rw [coe_sum]
  exact Finset.sum_congr rfl fun d _ => (EReal.coe_mul _ _).symm

end Cert.Reals

end
-- ==== Proof.Consts.lean ====
/-
  The float constants the two programs spell, as the extended reals their bit patterns denote:
  the batch-norm epsilon (the f32 nearest `1e-5`), the kernel's `1/1024` (exactly `2^-10`),
  and the reference's divisor `1024`.
-/
import Idealize.ShloMosaic.PureOps.Ideal
import proofs.«148636_j56599079026971_1_alg».proof.Proof.Spec

noncomputable section

namespace Cert.Consts

open Idealize.ShloMosaic

/-- The f32 nearest `1e-5` denotes `10995116 / 2^40`. -/
theorem ofBits_eps : Ideal.ofBits .f32 0x3727C5AC#32 = ((Cert.Spec.eps : ℝ) : EReal) := by
  unfold Cert.Spec.eps
  simp [Ideal.ofBits, Ideal.ieee, -EReal.coe_mul]; norm_num

/-- The kernel's averaging factor is exactly `2^-10 = 1/1024`. -/
theorem ofBits_inv1024 : Ideal.ofBits .f32 0x3A800000#32 = ((1 / 1024 : ℝ) : EReal) := by
  simp [Ideal.ofBits, Ideal.ieee, -EReal.coe_mul]; norm_num

/-- The reference's divisor is the real `1024`. -/
theorem ofBits_1024 : Ideal.ofBits .f32 0x44800000#32 = ((1024 : ℝ) : EReal) := by
  simp [Ideal.ofBits, Ideal.ieee, -EReal.coe_mul]; norm_num

end Cert.Consts

end
-- ==== Proof.KerHost.lean ====
/-
  The contents of the thirteen arrays the kernel region stages, as the host operations before the
  region leave them, on argument arrays that are readings of reals with nonnegative variances:
  the input reshaped to 32 slabs; each weight transposed; and per layer the folded scale row
  `g * rsqrt (var + eps)` and shift row `(b - mu) * scale + beta`, each reshaped to one row of 512.
-/
import proofs.«148636_j56599079026971_1_alg».proof.Proof.Gen.KernelIdeal.Frame
import proofs.«148636_j56599079026971_1_alg».proof.Proof.Layer
import proofs.«148636_j56599079026971_1_alg».proof.Proof.Reals
import proofs.«148636_j56599079026971_1_alg».proof.Proof.Consts
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Hand

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ)

/-- The kernel program's 25 argument arrays on core `c` are readings of these reals, the variances nonnegative. -/
structure ArgsAre (c : Dev nD) (x : Fin 4 → Fin 8 → Fin 1024 → Fin 512 → ℝ) (Pq Pk Pv Pp : LinBN) : Prop where
  hx : InputIs x (m ((c : Thread nD τ).loc main_arg0))
  hq : LayerAre Pq (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
  hk : LayerAre Pk (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
  hv : LayerAre Pv (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
  hp : LayerAre Pp (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))

variable {m} {c : Dev nD} {x : Fin 4 → Fin 8 → Fin 1024 → Fin 512 → ℝ} {Pq Pk Pv Pp : LinBN}

/-! ## The host terms, read at an index

Each layer's two rows are the same two terms of its argument rows: with the epsilon row `eps` (the scalar
constant broadcast over the 512 channels) the scale row is `g * rsqrt (var + eps)` and the shift row is
`(b - mu) * scale + beta`. They are named once, over variables, and read at a channel there. -/

/-- The epsilon row: the scalar constant broadcast over the 512 channels. -/
private def epsRow : FVec Ideal S512 .f32 :=
  broadcastInDim S512 ![] bcast_S_S512 (constant (F := Ideal) S_ .f32 0x3727C5AC#32)

/-- The scale row of a gain row and a variance row. -/
private def scaleRow (g var : FVec Ideal S512 .f32) : FVec Ideal S512 .f32 :=
  mulf (F := Ideal) g (Host.rsqrt (F := Ideal) (addf (F := Ideal) var epsRow))

/-- The shift row of a bias row, a mean row, a scale row and an offset row. -/
private def shiftRow (b mu s beta : FVec Ideal S512 .f32) : FVec Ideal S512 .f32 :=
  addf (F := Ideal) (mulf (F := Ideal) (subf (F := Ideal) b mu) s) beta

/-- Every entry of the epsilon row is the real `eps`. -/
private theorem epsRow_apply (c' : Fin 512) : epsRow (ix1 c') = ((eps : ℝ) : EReal) := by
  unfold epsRow
  refine (broadcastInDim_apply (s := S_) (t := S512) (![] : Fin 0 → Fin S512.rank) bcast_S_S512 _ (ix1 c')
    (fun a : Fin 0 => a.elim0) (fun a : Fin 0 => a.elim0)).trans ?_
  exact (constant_apply (s := S_) (φ := .f32) 0x3727C5AC#32 _).trans Cert.Consts.ofBits_eps

/-- On readings of a layer's gain and nonnegative variance, the scale row reads the real scale. -/
private theorem scaleRow_apply (P : LinBN) (hv : ∀ c, 0 ≤ P.var c) (g var : FVec Ideal S512 .f32)
    (hg : ∀ c : Fin 512, g (ix1 c) = (P.g c : EReal)) (hvar : ∀ c : Fin 512, var (ix1 c) = (P.var c : EReal))
    (c' : Fin 512) : scaleRow g var (ix1 c') = ((scale P c' : ℝ) : EReal) := by
  show g (ix1 c') * FloatOps.hostUnary .rsqrt (var (ix1 c') + epsRow (ix1 c')) = _
  rw [Ideal.hostUnary_rsqrt_def, hg, hvar, epsRow_apply]
  exact Cert.Reals.scale_coe P hv c'

/-- On readings of a layer's bias, mean and offset, and over a row that reads the real scale, the shift row
    reads the real shift. -/
private theorem shiftRow_apply (P : LinBN) (b mu s beta : FVec Ideal S512 .f32)
    (hb : ∀ c : Fin 512, b (ix1 c) = (P.b c : EReal)) (hmu : ∀ c : Fin 512, mu (ix1 c) = (P.mu c : EReal))
    (hs : ∀ c : Fin 512, s (ix1 c) = ((scale P c : ℝ) : EReal)) (hbeta : ∀ c : Fin 512, beta (ix1 c) = (P.beta c : EReal))
    (c' : Fin 512) : shiftRow b mu s beta (ix1 c') = ((shift P c' : ℝ) : EReal) := by
  show (b (ix1 c') - mu (ix1 c')) * s (ix1 c') + beta (ix1 c') = _
  rw [hb, hmu, hs, hbeta]
  exact Cert.Reals.shift_coe P c'

/-- A row of 512 reshaped to `[1, 512]` reads, at `(0, c')`, the row at `c'`. -/
private theorem oneRow_apply (v : FVec Ideal S512 .f32) (c' : Fin 512) :
    shapeCast S1x512 v shapeCasts_S512_S1x512 (ix2 (0 : Fin 1) c') = v (ix1 c') :=
  shapeCast_a_1a_apply v shapeCasts_S512_S1x512 (0 : Fin 1) c'

/-- The input reshaped to 32 slabs reads, at `(i, n, j)`, the input at `(i / 8, i % 8, n, j)`: the two row-major
    positions agree since `8 * (i / 8) + i % 8 = i`. -/
private theorem slabs_apply (a : S4x8x1024x512.Idx → EReal) (i : Fin 32) (n : Fin 1024) (j : Fin 512) :
    shapeCast S32x1024x512 a shapeCasts_S4x8x1024x512_S32x1024x512 (ix3 i n j)
      = a (ix4 (⟨i.val / 8, by have := i.isLt; omega⟩ : Fin 4) (⟨i.val % 8, Nat.mod_lt _ (by decide)⟩ : Fin 8) n j) :=
  shapeCast_apply a shapeCasts_S4x8x1024x512_S32x1024x512 _ _ (by
    rw [Shape.rowMajor_val_four, Shape.rowMajor_val_three]
    show ((i.val / 8 * 8 + i.val % 8) * 1024 + n.val) * 512 + j.val = (i.val * 1024 + n.val) * 512 + j.val
    have h : i.val / 8 * 8 + i.val % 8 = i.val := by omega
    rw [h])

/-- A transposed weight reads, at `(j, c')`, the weight at `(c', j)`. -/
private theorem weightT_apply (P : LinBN) (W : S512x512.Idx → EReal) (hW : ∀ c j : Fin 512, W (ix2 c j) = (P.W c j : EReal))
    (j c' : Fin 512) :
    transpose S512x512 [1, 0] W transposes_S512x512_S512x512_1_0 (ix2 j c') = (P.W c' j : EReal) :=
  (transpose_ix2_apply W transposes_S512x512_S512x512_1_0 j c').trans (hW c' j)

/-- Window 0's array: the input as 32 slabs. -/
theorem V_x (hA : ArgsAre m c x Pq Pk Pv Pp) (i : Fin 32) (n : Fin 1024) (j : Fin 512) :
    V m c main_v40 (ix3 i n j) = (slabOf x i n j : EReal) := by
  have e : (V m c main_v40 : S32x1024x512.Idx → EReal) = fun i => shapeCast S32x1024x512
      (m ((c : Thread nD τ).loc main_arg0)) shapeCasts_S4x8x1024x512_S32x1024x512 i := by
    show StableHlo.after hostOps0 (fun b => m (c, b)) (Proc.devRef .tc main_v40) = _
    after_results
    rfl
  refine (congrFun e _).trans ?_
  refine (slabs_apply _ i n j).trans ?_
  exact hA.hx _ _ n j

/-- Windows 1, 4, 7, 10: the transposed weights. -/
theorem V_Wq (hA : ArgsAre m c x Pq Pk Pv Pp) (j c' : Fin 512) : V m c main_v36 (ix2 j c') = (Pq.W c' j : EReal) := by
  have e : (V m c main_v36 : S512x512.Idx → EReal) = transpose S512x512 [1, 0]
      (m ((c : Thread nD τ).loc main_arg1)) transposes_S512x512_S512x512_1_0 := by
    show StableHlo.after hostOps0 (fun b => m (c, b)) (Proc.devRef .tc main_v36) = _
    after_results
  refine (congrFun e _).trans ?_
  exact weightT_apply Pq _ hA.hq.hW j c'
theorem V_Wk (hA : ArgsAre m c x Pq Pk Pv Pp) (j c' : Fin 512) : V m c main_v37 (ix2 j c') = (Pk.W c' j : EReal) := by
  have e : (V m c main_v37 : S512x512.Idx → EReal) = transpose S512x512 [1, 0]
      (m ((c : Thread nD τ).loc main_arg7)) transposes_S512x512_S512x512_1_0 := by
    show StableHlo.after hostOps0 (fun b => m (c, b)) (Proc.devRef .tc main_v37) = _
    after_results
  refine (congrFun e _).trans ?_
  exact weightT_apply Pk _ hA.hk.hW j c'
theorem V_Wv (hA : ArgsAre m c x Pq Pk Pv Pp) (j c' : Fin 512) : V m c main_v38 (ix2 j c') = (Pv.W c' j : EReal) := by
  have e : (V m c main_v38 : S512x512.Idx → EReal) = transpose S512x512 [1, 0]
      (m ((c : Thread nD τ).loc main_arg13)) transposes_S512x512_S512x512_1_0 := by
    show StableHlo.after hostOps0 (fun b => m (c, b)) (Proc.devRef .tc main_v38) = _
    after_results
  refine (congrFun e _).trans ?_
  exact weightT_apply Pv _ hA.hv.hW j c'
theorem V_Wp (hA : ArgsAre m c x Pq Pk Pv Pp) (j c' : Fin 512) : V m c main_v39 (ix2 j c') = (Pp.W c' j : EReal) := by
  have e : (V m c main_v39 : S512x512.Idx → EReal) = transpose S512x512 [1, 0]
      (m ((c : Thread nD τ).loc main_arg19)) transposes_S512x512_S512x512_1_0 := by
    show StableHlo.after hostOps0 (fun b => m (c, b)) (Proc.devRef .tc main_v39) = _
    after_results
  refine (congrFun e _).trans ?_
  exact weightT_apply Pp _ hA.hp.hW j c'

/-- Windows 2, 5, 8, 11: the scale rows. -/
theorem V_sq (hA : ArgsAre m c x Pq Pk Pv Pp) (c' : Fin 512) : V m c main_v7 (ix2 (0 : Fin 1) c') = (scale Pq c' : EReal) := by
  have e : (V m c main_v7 : S1x512.Idx → EReal) = fun i => shapeCast S1x512
      (scaleRow (m ((c : Thread nD τ).loc main_arg3)) (m ((c : Thread nD τ).loc main_arg6))) shapeCasts_S512_S1x512 i := by
    show StableHlo.after hostOps0 (fun b => m (c, b)) (Proc.devRef .tc main_v7) = _
    after_results_simp
    rfl
  refine (congrFun e _).trans ?_
  refine (oneRow_apply _ c').trans ?_
  exact scaleRow_apply Pq hA.hq.var_nonneg _ _ hA.hq.hg hA.hq.hvar c'
theorem V_sk (hA : ArgsAre m c x Pq Pk Pv Pp) (c' : Fin 512) : V m c main_v16 (ix2 (0 : Fin 1) c') = (scale Pk c' : EReal) := by
  have e : (V m c main_v16 : S1x512.Idx → EReal) = fun i => shapeCast S1x512
      (scaleRow (m ((c : Thread nD τ).loc main_arg9)) (m ((c : Thread nD τ).loc main_arg12))) shapeCasts_S512_S1x512 i := by
    show StableHlo.after hostOps0 (fun b => m (c, b)) (Proc.devRef .tc main_v16) = _
    after_results_simp
    rfl
  refine (congrFun e _).trans ?_
  refine (oneRow_apply _ c').trans ?_
  exact scaleRow_apply Pk hA.hk.var_nonneg _ _ hA.hk.hg hA.hk.hvar c'
theorem V_sv (hA : ArgsAre m c x Pq Pk Pv Pp) (c' : Fin 512) : V m c main_v25 (ix2 (0 : Fin 1) c') = (scale Pv c' : EReal) := by
  have e : (V m c main_v25 : S1x512.Idx → EReal) = fun i => shapeCast S1x512
      (scaleRow (m ((c : Thread nD τ).loc main_arg15)) (m ((c : Thread nD τ).loc main_arg18))) shapeCasts_S512_S1x512 i := by
    show StableHlo.after hostOps0 (fun b => m (c, b)) (Proc.devRef .tc main_v25) = _
    after_results_simp
    rfl
  refine (congrFun e _).trans ?_
  refine (oneRow_apply _ c').trans ?_
  exact scaleRow_apply Pv hA.hv.var_nonneg _ _ hA.hv.hg hA.hv.hvar c'
theorem V_sp (hA : ArgsAre m c x Pq Pk Pv Pp) (c' : Fin 512) : V m c main_v34 (ix2 (0 : Fin 1) c') = (scale Pp c' : EReal) := by
  have e : (V m c main_v34 : S1x512.Idx → EReal) = fun i => shapeCast S1x512
      (scaleRow (m ((c : Thread nD τ).loc main_arg21)) (m ((c : Thread nD τ).loc main_arg24))) shapeCasts_S512_S1x512 i := by
    show StableHlo.after hostOps0 (fun b => m (c, b)) (Proc.devRef .tc main_v34) = _
    after_results_simp
    rfl
  refine (congrFun e _).trans ?_
  refine (oneRow_apply _ c').trans ?_
  exact scaleRow_apply Pp hA.hp.var_nonneg _ _ hA.hp.hg hA.hp.hvar c'

/-- Windows 3, 6, 9, 12: the shift rows. -/
theorem V_tq (hA : ArgsAre m c x Pq Pk Pv Pp) (c' : Fin 512) : V m c main_v8 (ix2 (0 : Fin 1) c') = (shift Pq c' : EReal) := by
  have e : (V m c main_v8 : S1x512.Idx → EReal) = fun i => shapeCast S1x512
      (shiftRow (m ((c : Thread nD τ).loc main_arg2)) (m ((c : Thread nD τ).loc main_arg5))
        (scaleRow (m ((c : Thread nD τ).loc main_arg3)) (m ((c : Thread nD τ).loc main_arg6)))
        (m ((c : Thread nD τ).loc main_arg4))) shapeCasts_S512_S1x512 i := by
    show StableHlo.after hostOps0 (fun b => m (c, b)) (Proc.devRef .tc main_v8) = _
    after_results_simp
    rfl
  refine (congrFun e _).trans ?_
  refine (oneRow_apply _ c').trans ?_
  exact shiftRow_apply Pq _ _ _ _ hA.hq.hb hA.hq.hmu
    (scaleRow_apply Pq hA.hq.var_nonneg _ _ hA.hq.hg hA.hq.hvar) hA.hq.hbeta c'
theorem V_tk (hA : ArgsAre m c x Pq Pk Pv Pp) (c' : Fin 512) : V m c main_v17 (ix2 (0 : Fin 1) c') = (shift Pk c' : EReal) := by
  have e : (V m c main_v17 : S1x512.Idx → EReal) = fun i => shapeCast S1x512
      (shiftRow (m ((c : Thread nD τ).loc main_arg8)) (m ((c : Thread nD τ).loc main_arg11))
        (scaleRow (m ((c : Thread nD τ).loc main_arg9)) (m ((c : Thread nD τ).loc main_arg12)))
        (m ((c : Thread nD τ).loc main_arg10))) shapeCasts_S512_S1x512 i := by
    show StableHlo.after hostOps0 (fun b => m (c, b)) (Proc.devRef .tc main_v17) = _
    after_results_simp
    rfl
  refine (congrFun e _).trans ?_
  refine (oneRow_apply _ c').trans ?_
  exact shiftRow_apply Pk _ _ _ _ hA.hk.hb hA.hk.hmu
    (scaleRow_apply Pk hA.hk.var_nonneg _ _ hA.hk.hg hA.hk.hvar) hA.hk.hbeta c'
theorem V_tv (hA : ArgsAre m c x Pq Pk Pv Pp) (c' : Fin 512) : V m c main_v26 (ix2 (0 : Fin 1) c') = (shift Pv c' : EReal) := by
  have e : (V m c main_v26 : S1x512.Idx → EReal) = fun i => shapeCast S1x512
      (shiftRow (m ((c : Thread nD τ).loc main_arg14)) (m ((c : Thread nD τ).loc main_arg17))
        (scaleRow (m ((c : Thread nD τ).loc main_arg15)) (m ((c : Thread nD τ).loc main_arg18)))
        (m ((c : Thread nD τ).loc main_arg16))) shapeCasts_S512_S1x512 i := by
    show StableHlo.after hostOps0 (fun b => m (c, b)) (Proc.devRef .tc main_v26) = _
    after_results_simp
    rfl
  refine (congrFun e _).trans ?_
  refine (oneRow_apply _ c').trans ?_
  exact shiftRow_apply Pv _ _ _ _ hA.hv.hb hA.hv.hmu
    (scaleRow_apply Pv hA.hv.var_nonneg _ _ hA.hv.hg hA.hv.hvar) hA.hv.hbeta c'
theorem V_tp (hA : ArgsAre m c x Pq Pk Pv Pp) (c' : Fin 512) : V m c main_v35 (ix2 (0 : Fin 1) c') = (shift Pp c' : EReal) := by
  have e : (V m c main_v35 : S1x512.Idx → EReal) = fun i => shapeCast S1x512
      (shiftRow (m ((c : Thread nD τ).loc main_arg20)) (m ((c : Thread nD τ).loc main_arg23))
        (scaleRow (m ((c : Thread nD τ).loc main_arg21)) (m ((c : Thread nD τ).loc main_arg24)))
        (m ((c : Thread nD τ).loc main_arg22))) shapeCasts_S512_S1x512 i := by
    show StableHlo.after hostOps0 (fun b => m (c, b)) (Proc.devRef .tc main_v35) = _
    after_results_simp
    rfl
  refine (congrFun e _).trans ?_
  refine (oneRow_apply _ c').trans ?_
  exact shiftRow_apply Pp _ _ _ _ hA.hp.hb hA.hp.hmu
    (scaleRow_apply Pp hA.hp.var_nonneg _ _ hA.hp.hg hA.hp.hvar) hA.hp.hbeta c'

end Cert.KernelIdeal.Hand

end
-- ==== Proof.KerLayers.lean ====
/-
  The kernel body's three input layers read at an index.  On a slab block that is the reading of
  `z`, a weight block holding the transposed weight `W c j` at `(j, c)`, and scale and shift rows
  holding `scale P` and `shift P`, the body's matrix product into a zero accumulator, times the
  broadcast scale row, plus the broadcast shift row, is at `(n, c)` the reading of `linbnKer P z n c`
  (the format changes around the product are the identity on extended reals).
-/
import proofs.«148636_j56599079026971_1_alg».proof.Proof.Gen.KernelIdeal.Skeleton
import proofs.«148636_j56599079026971_1_alg».proof.Proof.Layer
import proofs.«148636_j56599079026971_1_alg».proof.Proof.Reals
import proofs.«148636_j56599079026971_1_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.Spec
open Idealize.ShloMosaic Idealize.ShloMosaic.TcCoe Idealize.ShloMosaic.ValueIdx Idealize.SL.Sem

/-! ## The body's matrix product at an index

The body's three products all have the dimension numbers "contract the left operand's axis 1 with the
right operand's axis 0"; the left operand's index at output `(n, c)` and contraction position `k` is
`(n, k)` and the right operand's is `(k, c)`. -/

private theorem lhs_dot_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl

private theorem lhs_dot_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q

private theorem rhs_dot_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q

private theorem rhs_dot_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product of a `[1024, 512]` operand and a `[512, 512]` operand into a zero accumulator, at `(n, c)`,
    is the sum over `k` of the left operand at `(n, k)` times the right operand at `(k, c)`. -/
private theorem matmul_zero_apply {φ₁ φ₂ : FTy} (a : FVec Ideal S1024x512 φ₁) (w : FVec Ideal S512x512 φ₂)
    (n : Fin 1024) (c : Fin 512) :
    matmul dot_S1024x512_S512x512_S1024x512_1_0_0_1_n_n none a w (constant (F := Ideal) S1024x512 .f32 0x00000000#32) (ix2 n c)
      = ∑ k : Fin 512, a (ix2 n k) * w (ix2 k c) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 n c) ((ValueIdx.contrEquiv1 dot_S1024x512_S512x512_S1024x512_1_0_0_1_n_n 512 rfl rfl).symm k) = ix2 n k := funext fun a => Fin.ext (by
    match a with
    | ⟨0, _⟩ => exact lhs_dot_0 _ _
    | ⟨1, _⟩ => exact (lhs_dot_1 _ _).trans hk)
  have er : dot_S1024x512_S512x512_S1024x512_1_0_0_1_n_n.rhsIdx (ix2 n c) ((ValueIdx.contrEquiv1 dot_S1024x512_S512x512_S1024x512_1_0_0_1_n_n 512 rfl rfl).symm k) = ix2 k c := funext fun a => Fin.ext (by
    match a with
    | ⟨0, _⟩ => exact (rhs_dot_0 _ _).trans hk
    | ⟨1, _⟩ => exact rhs_dot_1 _ _)
  rw [el, er]

/-! ## The slab and the rows at an index -/

/-- The slab block viewed as a `[1024, 512]` matrix (the narrowing of the format is the identity on extended reals):
    at `(n, j)` it reads the block at `(0, n, j)`, the index with the same row-major position. -/
private theorem pay2_apply (v0 : Vec Ideal S1x1024x512 .f32) (n : Fin 1024) (j : Fin 512) :
    k0_pay2 (F := Ideal) v0 (ix2 n j) = v0 (ix3 (0 : Fin 1) n j) := by
  unfold k0_pay2
  rw [truncf_apply]
  refine shapeCast_apply v0 _ (ix2 n j) (ix3 (0 : Fin 1) n j) ?_
  rw [Shape.rowMajor_val_three, Shape.rowMajor_val_two]
  show (0 * 1024 + n.val) * 512 + j.val = n.val * 512 + j.val
  omega

/-- A `[1, 512]` row broadcast along the 1024 rows reads, at `(n, c)`, the row at `(0, c)`. -/
private theorem row_apply (r : Vec Ideal S1x512 .f32) (n : Fin 1024) (c : Fin 512) :
    broadcastTo S1024x512 (shapeCast S1x512 r shapeCasts_S1x512_S1x512) broadcasts_S1x512_S1024x512 (ix2 n c)
      = r (ix2 (0 : Fin 1) c) := by
  rw [shapeCast_self]
  refine broadcastTo_apply r _ (ix2 n c) (ix2 (0 : Fin 1) c) ?_
  intro a
  match a with
  | ⟨0, _⟩ => rfl
  | ⟨1, _⟩ => rfl

/-- One layer of the body: the product of the slab matrix and the narrowed weight block into zero, times the
    broadcast scale row, plus the broadcast shift row, at `(n, c)`. -/
private theorem layer_apply (a : FVec Ideal S1024x512 .bf16) (W : Vec Ideal S512x512 .f32) (s t : Vec Ideal S1x512 .f32)
    (n : Fin 1024) (c : Fin 512) :
    addf (mulf
        (matmul dot_S1024x512_S512x512_S1024x512_1_0_0_1_n_n none a
          (truncf .bf16 (shapeCast S512x512 W shapeCasts_S512x512_S512x512) bitsLt_bf16_f32)
          (constant (F := Ideal) S1024x512 .f32 0x00000000#32))
        (broadcastTo S1024x512 (shapeCast S1x512 s shapeCasts_S1x512_S1x512) broadcasts_S1x512_S1024x512))
      (broadcastTo S1024x512 (shapeCast S1x512 t shapeCasts_S1x512_S1x512) broadcasts_S1x512_S1024x512) (ix2 n c)
      = (∑ k : Fin 512, a (ix2 n k) * W (ix2 k c)) * s (ix2 (0 : Fin 1) c) + t (ix2 (0 : Fin 1) c) := by
  rw [addf_apply, mulf_apply, row_apply, row_apply, matmul_zero_apply, shapeCast_self]
  rfl

/-- The layer on a slab block that reads `z`, a weight block that reads the transposed weight, and rows that read
    the folded scale and shift. -/
private theorem layer_coe (P : LinBN) (z : Fin 1024 → Fin 512 → ℝ)
    (v0 : Vec Ideal S1x1024x512 .f32) (W : Vec Ideal S512x512 .f32) (s t : Vec Ideal S1x512 .f32)
    (h0 : ∀ (n : Fin 1024) (j : Fin 512), v0 (ix3 (0 : Fin 1) n j) = (z n j : EReal))
    (hW : ∀ j c : Fin 512, W (ix2 j c) = (P.W c j : EReal))
    (hs : ∀ c : Fin 512, s (ix2 (0 : Fin 1) c) = (scale P c : EReal))
    (ht : ∀ c : Fin 512, t (ix2 (0 : Fin 1) c) = (shift P c : EReal))
    (n : Fin 1024) (c : Fin 512) :
    (∑ k : Fin 512, k0_pay2 (F := Ideal) v0 (ix2 n k) * W (ix2 k c)) * s (ix2 (0 : Fin 1) c) + t (ix2 (0 : Fin 1) c)
      = ((linbnKer P z n c : ℝ) : EReal) := by
  rw [hs, ht, Finset.sum_congr rfl fun k _ => show k0_pay2 (F := Ideal) v0 (ix2 n k) * W (ix2 k c)
      = (z n k : EReal) * (P.W c k : EReal) by rw [pay2_apply, h0, hW]]
  exact Cert.Reals.linbnKer_coe P z n c

/-! ## The three layers -/

/-- The query layer: payload `%14`. -/
theorem pay3_apply (P : LinBN) (z : Fin 1024 → Fin 512 → ℝ)
    (v0 : Vec Ideal S1x1024x512 .f32) (v3 : Vec Ideal S512x512 .f32) (v7 v11 : Vec Ideal S1x512 .f32)
    (h0 : ∀ (n : Fin 1024) (j : Fin 512), v0 (ix3 (0 : Fin 1) n j) = (z n j : EReal))
    (hW : ∀ j c : Fin 512, v3 (ix2 j c) = (P.W c j : EReal))
    (hs : ∀ c : Fin 512, v7 (ix2 (0 : Fin 1) c) = (scale P c : EReal))
    (ht : ∀ c : Fin 512, v11 (ix2 (0 : Fin 1) c) = (shift P c : EReal))
    (n : Fin 1024) (c : Fin 512) :
    k0_pay3 (F := Ideal) v0 v3 v7 v11 (ix2 n c) = ((linbnKer P z n c : ℝ) : EReal) := by
  unfold k0_pay3
  exact (layer_apply (k0_pay2 v0) v3 v7 v11 n c).trans (layer_coe P z v0 v3 v7 v11 h0 hW hs ht n c)

/-- The key layer: payload `%26`. -/
theorem pay4_apply (P : LinBN) (z : Fin 1024 → Fin 512 → ℝ)
    (v0 : Vec Ideal S1x1024x512 .f32) (v15 : Vec Ideal S512x512 .f32) (v19 v23 : Vec Ideal S1x512 .f32)
    (h0 : ∀ (n : Fin 1024) (j : Fin 512), v0 (ix3 (0 : Fin 1) n j) = (z n j : EReal))
    (hW : ∀ j c : Fin 512, v15 (ix2 j c) = (P.W c j : EReal))
    (hs : ∀ c : Fin 512, v19 (ix2 (0 : Fin 1) c) = (scale P c : EReal))
    (ht : ∀ c : Fin 512, v23 (ix2 (0 : Fin 1) c) = (shift P c : EReal))
    (n : Fin 1024) (c : Fin 512) :
    k0_pay4 (F := Ideal) v0 v15 v19 v23 (ix2 n c) = ((linbnKer P z n c : ℝ) : EReal) := by
  unfold k0_pay4
  exact (layer_apply (k0_pay2 v0) v15 v19 v23 n c).trans (layer_coe P z v0 v15 v19 v23 h0 hW hs ht n c)

/-- The value layer: payload `%34` (product times scale) and then `%38` (plus shift). -/
theorem pay56_apply (P : LinBN) (z : Fin 1024 → Fin 512 → ℝ)
    (v0 : Vec Ideal S1x1024x512 .f32) (v27 : Vec Ideal S512x512 .f32) (v31 v35 : Vec Ideal S1x512 .f32)
    (h0 : ∀ (n : Fin 1024) (j : Fin 512), v0 (ix3 (0 : Fin 1) n j) = (z n j : EReal))
    (hW : ∀ j c : Fin 512, v27 (ix2 j c) = (P.W c j : EReal))
    (hs : ∀ c : Fin 512, v31 (ix2 (0 : Fin 1) c) = (scale P c : EReal))
    (ht : ∀ c : Fin 512, v35 (ix2 (0 : Fin 1) c) = (shift P c : EReal))
    (n : Fin 1024) (c : Fin 512) :
    k0_pay6 (F := Ideal) (k0_pay5 (F := Ideal) v0 v27 v31) v35 (ix2 n c) = ((linbnKer P z n c : ℝ) : EReal) := by
  unfold k0_pay6 k0_pay5
  exact (layer_apply (k0_pay2 v0) v27 v31 v35 n c).trans (layer_coe P z v0 v27 v31 v35 h0 hW hs ht n c)

end Cert.KernelIdeal.Hand

end
-- ==== Proof.KerHeads.lean ====
/-
  The kernel body's attention heads read at an index.  Each head slices 64 channels off the three
  layers' outputs, multiplies keys against values over the 1024 tokens (a matrix product contracting the
  token axis, into a zero accumulator), scales by the constant `2^-10 = 1/1024`, and multiplies the
  queries against the result; heads 0 to 3 are payloads of their own, heads 4 to 7 are computed inside the
  payload that lays all eight side by side (a concatenation along the channel axis).  On inputs that
  are readings of reals `q`, `k`, `v`, head `h` at `(n, e)` is the reading of `attnHead q k v n h e`
  and the concatenation at `(n, c)` the reading of `attn q k v n c`.
-/
import proofs.«148636_j56599079026971_1_alg».proof.Proof.Gen.KernelIdeal.Skeleton
import proofs.«148636_j56599079026971_1_alg».proof.Proof.Layer
import proofs.«148636_j56599079026971_1_alg».proof.Proof.Reals
import proofs.«148636_j56599079026971_1_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.Spec
open Idealize.ShloMosaic Idealize.ShloMosaic.TcCoe Idealize.ShloMosaic.ValueIdx Idealize.SL.Sem

/-! ## The two matrix products' operand indices, axis by axis -/

/-- Keys against values: the left operand's token axis is the contraction's coordinate. -/
private theorem lhs_kv_0 (i : S64x64.Idx) (q : dot_S1024x64_S1024x64_S64x64_0_0_1_1_n_n.contr.Idx) :
    (dot_S1024x64_S1024x64_S64x64_0_0_1_1_n_n.lhsIdx i q 0).val = (q ⟨0, by decide⟩).val :=
  dot_S1024x64_S1024x64_S64x64_0_0_1_1_n_n.lhsIdx_val_of_single rfl i q
/-- Keys against values: the left operand's channel axis is the result's row. -/
private theorem lhs_kv_1 (i : S64x64.Idx) (q : dot_S1024x64_S1024x64_S64x64_0_0_1_1_n_n.contr.Idx) :
    (dot_S1024x64_S1024x64_S64x64_0_0_1_1_n_n.lhsIdx i q 1).val = (i 0).val := by
  unfold DotDims.lhsIdx
  rw [dif_neg (show ¬(1 : Fin S1024x64.rank) ∈ dot_S1024x64_S1024x64_S64x64_0_0_1_1_n_n.lhsBatch by decide), dif_pos (show (1 : Fin S1024x64.rank) ∈ dot_S1024x64_S1024x64_S64x64_0_0_1_1_n_n.lhsNonContracting by decide)]
  rfl
private theorem rhs_kv_0 (i : S64x64.Idx) (q : dot_S1024x64_S1024x64_S64x64_0_0_1_1_n_n.contr.Idx) :
    (dot_S1024x64_S1024x64_S64x64_0_0_1_1_n_n.rhsIdx i q 0).val = (q ⟨0, by decide⟩).val :=
  dot_S1024x64_S1024x64_S64x64_0_0_1_1_n_n.rhsIdx_val_of_single rfl i q
private theorem rhs_kv_1 (i : S64x64.Idx) (q : dot_S1024x64_S1024x64_S64x64_0_0_1_1_n_n.contr.Idx) :
    (dot_S1024x64_S1024x64_S64x64_0_0_1_1_n_n.rhsIdx i q 1).val = (i 1).val := by
  unfold DotDims.rhsIdx
  rw [dif_neg (show ¬(1 : Fin S1024x64.rank) ∈ dot_S1024x64_S1024x64_S64x64_0_0_1_1_n_n.rhsBatch by decide), dif_pos (show (1 : Fin S1024x64.rank) ∈ dot_S1024x64_S1024x64_S64x64_0_0_1_1_n_n.rhsNonContracting by decide)]
  rfl

private theorem lhs_qkv_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
private theorem lhs_qkv_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
private theorem rhs_qkv_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
private theorem rhs_qkv_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- Keys against values into a zero accumulator, read at `(d, e)`: the sum over the tokens. -/
private theorem kvmat_apply (a b : FVec Ideal S1024x64 .bf16) (d e : Fin 64) :
    matmul dot_S1024x64_S1024x64_S64x64_0_0_1_1_n_n none a b (constant (F := Ideal) S64x64 .f32 0x00000000#32) (ix2 d e)
      = ∑ m : Fin 1024, a (ix2 m d) * b (ix2 m e) := by
  simp only [matmul]
  rw [Ideal.matmul_constant_zero_apply, ← Equiv.sum_comp (ValueIdx.contrEquiv1 dot_S1024x64_S1024x64_S64x64_0_0_1_1_n_n 1024 rfl rfl).symm]
  refine Finset.sum_congr rfl fun m _ => ?_
  have hm := ValueIdx.contrEquiv1_symm_val dot_S1024x64_S1024x64_S64x64_0_0_1_1_n_n 1024 rfl rfl m
  have el : dot_S1024x64_S1024x64_S64x64_0_0_1_1_n_n.lhsIdx (ix2 d e) ((ValueIdx.contrEquiv1 dot_S1024x64_S1024x64_S64x64_0_0_1_1_n_n 1024 rfl rfl).symm m) = ix2 m d := funext fun x => Fin.ext (by
    match x with
    | ⟨0, _⟩ => exact (lhs_kv_0 _ _).trans hm
    | ⟨1, _⟩ => exact lhs_kv_1 _ _)
  have er : dot_S1024x64_S1024x64_S64x64_0_0_1_1_n_n.rhsIdx (ix2 d e) ((ValueIdx.contrEquiv1 dot_S1024x64_S1024x64_S64x64_0_0_1_1_n_n 1024 rfl rfl).symm m) = ix2 m e := funext fun x => Fin.ext (by
    match x with
    | ⟨0, _⟩ => exact (rhs_kv_0 _ _).trans hm
    | ⟨1, _⟩ => exact rhs_kv_1 _ _)
  rw [el, er]

/-- Queries against a head's matrix into a zero accumulator, read at `(n, e)`: the sum over the head's channels. -/
private theorem qmat_apply (a : FVec Ideal S1024x64 .bf16) (b : FVec Ideal S64x64 .bf16) (n : Fin 1024) (e : Fin 64) :
    matmul dot_S1024x64_S64x64_S1024x64_1_0_0_1_n_n none a b (constant (F := Ideal) S1024x64 .f32 0x00000000#32) (ix2 n e)
      = ∑ d : Fin 64, a (ix2 n d) * b (ix2 d e) := by
  simp only [matmul]
  rw [Ideal.matmul_constant_zero_apply, ← Equiv.sum_comp (ValueIdx.contrEquiv1 dot_S1024x64_S64x64_S1024x64_1_0_0_1_n_n 64 rfl rfl).symm]
  refine Finset.sum_congr rfl fun d _ => ?_
  have hd := ValueIdx.contrEquiv1_symm_val dot_S1024x64_S64x64_S1024x64_1_0_0_1_n_n 64 rfl rfl d
  have el : dot_S1024x64_S64x64_S1024x64_1_0_0_1_n_n.lhsIdx (ix2 n e) ((ValueIdx.contrEquiv1 dot_S1024x64_S64x64_S1024x64_1_0_0_1_n_n 64 rfl rfl).symm d) = ix2 n d := funext fun x => Fin.ext (by
    match x with
    | ⟨0, _⟩ => exact lhs_qkv_0 _ _
    | ⟨1, _⟩ => exact (lhs_qkv_1 _ _).trans hd)
  have er : dot_S1024x64_S64x64_S1024x64_1_0_0_1_n_n.rhsIdx (ix2 n e) ((ValueIdx.contrEquiv1 dot_S1024x64_S64x64_S1024x64_1_0_0_1_n_n 64 rfl rfl).symm d) = ix2 d e := funext fun x => Fin.ext (by
    match x with
    | ⟨0, _⟩ => exact (rhs_qkv_0 _ _).trans hd
    | ⟨1, _⟩ => exact rhs_qkv_1 _ _)
  rw [el, er]

/-! ## One head -/

/-- The 64 channels of head `h` cut out of an array that reads `f`, narrowed to bf16 (the identity on extended reals):
    at `(n, d)` it reads `f n (64 h + d)`. -/
private theorem slice_read (x : FVec Ideal S1024x512 .f32) (f : Fin 1024 → Fin 512 → ℝ)
    (hx : ∀ (n : Fin 1024) (c : Fin 512), x (ix2 n c) = (f n c : EReal))
    (h : Fin 8) (o : Nat) (ho : o = 64 * h.val) (hs : S1024x512.Slices ![0, o] S1024x64)
    (hb : FTy.bits .bf16 < FTy.bits .f32) (n : Fin 1024) (d : Fin 64) :
    (truncf .bf16 (extractStridedSlice S1024x64 ![0, o] x hs) hb : FVec Ideal S1024x64 .bf16) (ix2 n d)
      = (f n (col h d) : EReal) := by
  rw [truncf_apply]
  exact (slice2_axis1_apply o x hs n d (col h d) (by rw [ho]; rfl)).trans (hx n (col h d))

/-- Head `h`, computed from the channels at offset `o = 64 h` of arrays that read `q`, `k`, `v`:
    keys against values over the tokens, times `1/1024`, then queries against that. -/
private theorem head_apply (q k v : Fin 1024 → Fin 512 → ℝ) (qa ka va : FVec Ideal S1024x512 .f32)
    (hq : ∀ (n : Fin 1024) (c : Fin 512), qa (ix2 n c) = (q n c : EReal))
    (hk : ∀ (n : Fin 1024) (c : Fin 512), ka (ix2 n c) = (k n c : EReal))
    (hv : ∀ (n : Fin 1024) (c : Fin 512), va (ix2 n c) = (v n c : EReal))
    (h : Fin 8) (o : Nat) (ho : o = 64 * h.val) (hs : S1024x512.Slices ![0, o] S1024x64)
    (hb : FTy.bits .bf16 < FTy.bits .f32) (n : Fin 1024) (e : Fin 64) :
    matmul dot_S1024x64_S64x64_S1024x64_1_0_0_1_n_n none
        (truncf .bf16 (extractStridedSlice S1024x64 ![0, o] qa hs) hb)
        (truncf .bf16 (mulf (matmul dot_S1024x64_S1024x64_S64x64_0_0_1_1_n_n none
              (truncf .bf16 (extractStridedSlice S1024x64 ![0, o] ka hs) hb)
              (truncf .bf16 (extractStridedSlice S1024x64 ![0, o] va hs) hb)
              (constant (F := Ideal) S64x64 .f32 0x00000000#32))
            (broadcast S64x64 (Scalar.ofBits (F := Ideal) .f32 0x3A800000#32))) hb)
        (constant (F := Ideal) S1024x64 .f32 0x00000000#32) (ix2 n e)
      = ((attnHead q k v n h e : ℝ) : EReal) := by
  rw [qmat_apply, ← Cert.Reals.attnHead_coe]
  refine Finset.sum_congr rfl fun d _ => ?_
  rw [slice_read qa q hq h o ho hs hb n d, truncf_apply, mulf_apply, broadcast_apply, kvmat_apply]
  show _ * (_ * Ideal.ofBits .f32 0x3A800000#32) = _
  rw [Cert.Consts.ofBits_inv1024, ← Cert.Reals.kv_coe_mul]
  congr 2
  refine Finset.sum_congr rfl fun m _ => ?_
  rw [slice_read ka k hk h o ho hs hb m d, slice_read va v hv h o ho hs hb m e]

/-! ## The eight heads side by side -/

/-- One of eight arrays, by its number. -/
private def pick8 (p0 p1 p2 p3 p4 p5 p6 p7 : FVec Ideal S1024x64 .f32) : Fin 8 → FVec Ideal S1024x64 .f32 := fun i =>
  match i with
  | ⟨0, _⟩ => p0 | ⟨1, _⟩ => p1 | ⟨2, _⟩ => p2 | ⟨3, _⟩ => p3
  | ⟨4, _⟩ => p4 | ⟨5, _⟩ => p5 | ⟨6, _⟩ => p6 | ⟨7, _⟩ => p7

/-- Eight arrays of 64 channels laid side by side, read at `(n, c)`: array `c / 64` at `(n, c % 64)`. -/
private theorem concat8_apply (p0 p1 p2 p3 p4 p5 p6 p7 : FVec Ideal S1024x64 .f32)
    (hc : Shape.Concatenates [S1024x64, S1024x64, S1024x64, S1024x64, S1024x64, S1024x64, S1024x64, S1024x64] S1024x512 1)
    (n : Fin 1024) (c : Fin 512) :
    concatenate S1024x512 1 [⟨S1024x64, p0⟩, ⟨S1024x64, p1⟩, ⟨S1024x64, p2⟩, ⟨S1024x64, p3⟩, ⟨S1024x64, p4⟩, ⟨S1024x64, p5⟩, ⟨S1024x64, p6⟩, ⟨S1024x64, p7⟩] hc (ix2 n c)
      = pick8 p0 p1 p2 p3 p4 p5 p6 p7 (headOf c) (ix2 n (within c)) := by
  exact concatenate_ofFn_apply (t := S1024x512) (s₁ := S1024x64) 1 (pick8 p0 p1 p2 p3 p4 p5 p6 p7) hc rfl 64 rfl
    (ix2 n c) (headOf c) rfl (ix2 n (within c)) rfl (fun b hb => by
      match b with
      | ⟨0, _⟩ => rfl
      | ⟨1, _⟩ => exact absurd rfl hb)

/-! ## Heads 0 to 3 and the concatenation -/

/-- Head 0: payload `%49`. -/
theorem pay7_apply (q k v : Fin 1024 → Fin 512 → ℝ)
    (v14 v26 v34 : FVec Ideal S1024x512 .f32) (v35 : Vec Ideal S1x512 .f32)
    (hq : ∀ (n : Fin 1024) (c : Fin 512), v14 (ix2 n c) = (q n c : EReal))
    (hk : ∀ (n : Fin 1024) (c : Fin 512), v26 (ix2 n c) = (k n c : EReal))
    (hv : ∀ (n : Fin 1024) (c : Fin 512), k0_pay6 (F := Ideal) v34 v35 (ix2 n c) = (v n c : EReal))
    (n : Fin 1024) (e : Fin 64) :
    k0_pay7 (F := Ideal) v14 v26 v34 v35 (ix2 n e) = ((attnHead q k v n (0 : Fin 8) e : ℝ) : EReal) := by
  unfold k0_pay7
  exact head_apply q k v v14 v26 (k0_pay6 (F := Ideal) v34 v35) hq hk hv (0 : Fin 8) 0 rfl _ _ n e

/-- Head 1: payload `%60`. -/
theorem pay8_apply (q k v : Fin 1024 → Fin 512 → ℝ)
    (v14 v26 v34 : FVec Ideal S1024x512 .f32) (v35 : Vec Ideal S1x512 .f32)
    (hq : ∀ (n : Fin 1024) (c : Fin 512), v14 (ix2 n c) = (q n c : EReal))
    (hk : ∀ (n : Fin 1024) (c : Fin 512), v26 (ix2 n c) = (k n c : EReal))
    (hv : ∀ (n : Fin 1024) (c : Fin 512), k0_pay6 (F := Ideal) v34 v35 (ix2 n c) = (v n c : EReal))
    (n : Fin 1024) (e : Fin 64) :
    k0_pay8 (F := Ideal) v14 v26 v34 v35 (ix2 n e) = ((attnHead q k v n (1 : Fin 8) e : ℝ) : EReal) := by
  unfold k0_pay8
  exact head_apply q k v v14 v26 (k0_pay6 (F := Ideal) v34 v35) hq hk hv (1 : Fin 8) 64 rfl _ _ n e

/-- Head 2: payload `%71`. -/
theorem pay9_apply (q k v : Fin 1024 → Fin 512 → ℝ)
    (v14 v26 v34 : FVec Ideal S1024x512 .f32) (v35 : Vec Ideal S1x512 .f32)
    (hq : ∀ (n : Fin 1024) (c : Fin 512), v14 (ix2 n c) = (q n c : EReal))
    (hk : ∀ (n : Fin 1024) (c : Fin 512), v26 (ix2 n c) = (k n c : EReal))
    (hv : ∀ (n : Fin 1024) (c : Fin 512), k0_pay6 (F := Ideal) v34 v35 (ix2 n c) = (v n c : EReal))
    (n : Fin 1024) (e : Fin 64) :
    k0_pay9 (F := Ideal) v14 v26 v34 v35 (ix2 n e) = ((attnHead q k v n (2 : Fin 8) e : ℝ) : EReal) := by
  unfold k0_pay9
  exact head_apply q k v v14 v26 (k0_pay6 (F := Ideal) v34 v35) hq hk hv (2 : Fin 8) 128 rfl _ _ n e

/-- Head 3: payload `%82`. -/
theorem pay10_apply (q k v : Fin 1024 → Fin 512 → ℝ)
    (v14 v26 v34 : FVec Ideal S1024x512 .f32) (v35 : Vec Ideal S1x512 .f32)
    (hq : ∀ (n : Fin 1024) (c : Fin 512), v14 (ix2 n c) = (q n c : EReal))
    (hk : ∀ (n : Fin 1024) (c : Fin 512), v26 (ix2 n c) = (k n c : EReal))
    (hv : ∀ (n : Fin 1024) (c : Fin 512), k0_pay6 (F := Ideal) v34 v35 (ix2 n c) = (v n c : EReal))
    (n : Fin 1024) (e : Fin 64) :
    k0_pay10 (F := Ideal) v14 v26 v34 v35 (ix2 n e) = ((attnHead q k v n (3 : Fin 8) e : ℝ) : EReal) := by
  unfold k0_pay10
  exact head_apply q k v v14 v26 (k0_pay6 (F := Ideal) v34 v35) hq hk hv (3 : Fin 8) 192 rfl _ _ n e

/-- Heads 4 to 7 and the concatenation of all eight: payload `%128`. -/
theorem pay11_apply (q k v : Fin 1024 → Fin 512 → ℝ)
    (v14 v26 v38 : FVec Ideal S1024x512 .f32) (v49 v60 v71 v82 : FVec Ideal S1024x64 .f32)
    (hq : ∀ (n : Fin 1024) (c : Fin 512), v14 (ix2 n c) = (q n c : EReal))
    (hk : ∀ (n : Fin 1024) (c : Fin 512), v26 (ix2 n c) = (k n c : EReal))
    (hv : ∀ (n : Fin 1024) (c : Fin 512), v38 (ix2 n c) = (v n c : EReal))
    (h0 : ∀ (n : Fin 1024) (e : Fin 64), v49 (ix2 n e) = ((attnHead q k v n (0 : Fin 8) e : ℝ) : EReal))
    (h1 : ∀ (n : Fin 1024) (e : Fin 64), v60 (ix2 n e) = ((attnHead q k v n (1 : Fin 8) e : ℝ) : EReal))
    (h2 : ∀ (n : Fin 1024) (e : Fin 64), v71 (ix2 n e) = ((attnHead q k v n (2 : Fin 8) e : ℝ) : EReal))
    (h3 : ∀ (n : Fin 1024) (e : Fin 64), v82 (ix2 n e) = ((attnHead q k v n (3 : Fin 8) e : ℝ) : EReal))
    (n : Fin 1024) (c : Fin 512) :
    k0_pay11 (F := Ideal) v14 v26 v38 v49 v60 v71 v82 (ix2 n c) = ((attn q k v n c : ℝ) : EReal) := by
  unfold k0_pay11
  rw [truncf_apply]
  refine (concat8_apply v49 v60 v71 v82 _ _ _ _ _ n c).trans ?_
  unfold attn
  generalize headOf c = h
  generalize within c = e
  match h with
  | ⟨0, _⟩ => exact h0 n e
  | ⟨1, _⟩ => exact h1 n e
  | ⟨2, _⟩ => exact h2 n e
  | ⟨3, _⟩ => exact h3 n e
  | ⟨4, _⟩ => exact head_apply q k v v14 v26 v38 hq hk hv (4 : Fin 8) 256 rfl _ _ n e
  | ⟨5, _⟩ => exact head_apply q k v v14 v26 v38 hq hk hv (5 : Fin 8) 320 rfl _ _ n e
  | ⟨6, _⟩ => exact head_apply q k v v14 v26 v38 hq hk hv (6 : Fin 8) 384 rfl _ _ n e
  | ⟨7, _⟩ => exact head_apply q k v v14 v26 v38 hq hk hv (7 : Fin 8) 448 rfl _ _ n e

end Cert.KernelIdeal.Hand

end
-- ==== Proof.KerOut.lean ====
/-
  The kernel body's output layer, and the whole body: what one grid point leaves in the output
  window's buffer, as a function of the thirteen input blocks.  On blocks that are readings of a slab
  `z`, of the four transposed weights and of the four folded scale and shift rows, the buffer at
  `(0, n, c)` is the reading of `outSlabKer Pq Pk Pv Pp z n c`.
-/
import proofs.«148636_j56599079026971_1_alg».proof.Proof.Gen.KernelIdeal.Frame
import proofs.«148636_j56599079026971_1_alg».proof.Proof.Layer
import proofs.«148636_j56599079026971_1_alg».proof.Proof.Reals
import proofs.«148636_j56599079026971_1_alg».proof.Proof.Consts
import Idealize.ShloMosaic.Lib.ValueIdx
import Idealize.ShloMosaic.Lib.ValueLayout
import Idealize.ShloMosaic.Lib.Pipeline.Value
import Idealize.ShloMosaic.PureOps.Ideal.Laws
import proofs.«148636_j56599079026971_1_alg».proof.Proof.KerLayers
import proofs.«148636_j56599079026971_1_alg».proof.Proof.KerHeads

noncomputable section

namespace Cert.KernelIdeal.Hand

open Cert.KernelIdeal Cert.KernelIdeal.Gen Cert.Spec
open Idealize.ShloMosaic Idealize.ShloMosaic.TcCoe Idealize.ShloMosaic.ValueIdx Idealize.SL.Sem

/-! ## The output layer's product: where the two operands are read

For the dimension numbers `[1] x [0]` (left axis 1 against right axis 0, no batch axis) the left
operand is read at (row of the result, contraction position) and the right operand at
(contraction position, column of the result). -/

private theorem outDot_lhs_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
private theorem outDot_lhs_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
private theorem outDot_rhs_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
private theorem outDot_rhs_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product into a zero accumulator, at `(n, c)`: the sum over `k` of the left operand at `(n, k)`
    times the right operand at `(k, c)`. -/
private theorem outDot_apply (a : FVec Ideal S1024x512 .bf16) (b : FVec Ideal S512x512 .bf16) (n : Fin 1024) (c : Fin 512) :
    matmul (F := Ideal) dot_S1024x512_S512x512_S1024x512_1_0_0_1_n_n none a b (constant (F := Ideal) S1024x512 .f32 0x00000000#32) (ix2 n c)
      = ∑ k : Fin 512, a (ix2 n k) * b (ix2 k c) := by
  refine (Ideal.matmul_constant_zero_apply dot_S1024x512_S512x512_S1024x512_1_0_0_1_n_n none a b (ix2 n c)).trans ?_
  rw [← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 n c) ((ValueIdx.contrEquiv1 dot_S1024x512_S512x512_S1024x512_1_0_0_1_n_n 512 rfl rfl).symm k) = ix2 n k := funext fun a => Fin.ext (by
    match a with
    | ⟨0, _⟩ => exact outDot_lhs_0 _ _
    | ⟨1, _⟩ => exact (outDot_lhs_1 _ _).trans hk)
  have er : dot_S1024x512_S512x512_S1024x512_1_0_0_1_n_n.rhsIdx (ix2 n c) ((ValueIdx.contrEquiv1 dot_S1024x512_S512x512_S1024x512_1_0_0_1_n_n 512 rfl rfl).symm k) = ix2 k c := funext fun a => Fin.ext (by
    match a with
    | ⟨0, _⟩ => exact (outDot_rhs_0 _ _).trans hk
    | ⟨1, _⟩ => exact outDot_rhs_1 _ _)
  rw [el, er]

/-- A `[1,512]` row broadcast to `[1024,512]` reads, at `(n, c)`, the row at `(0, c)`. -/
private theorem rowBroadcast_apply (r : FVec Ideal S1x512 .f32) (n : Fin 1024) (c : Fin 512) :
    broadcastTo S1024x512 r broadcasts_S1x512_S1024x512 (ix2 n c) = r (ix2 (0 : Fin 1) c) := by
  refine broadcastTo_apply r broadcasts_S1x512_S1024x512 (ix2 n c) (ix2 (0 : Fin 1) c) ?_
  intro a
  match a with
  | ⟨0, _⟩ => rfl
  | ⟨1, _⟩ => rfl

/-- The last cast `[1024,512] → [1,1024,512]` reads, at `(0, n, c)`, the operand at `(n, c)`. -/
private theorem addUnitCast_apply (x : FVec Ideal S1024x512 .f32) (n : Fin 1024) (c : Fin 512) :
    shapeCast S1x1024x512 x shapeCasts_S1024x512_S1x1024x512 (ix3 (0 : Fin 1) n c) = x (ix2 n c) := by
  refine shapeCast_apply x shapeCasts_S1024x512_S1x1024x512 (ix3 (0 : Fin 1) n c) (ix2 n c) ?_
  rw [Shape.rowMajor_val_two, Shape.rowMajor_val_three]
  show n.val * 512 + c.val = ((0 : Fin 1).val * 1024 + n.val) * 512 + c.val
  simp

/-- The output layer over the concatenated heads: payload `%143` (stored whole into the output block). -/
theorem pay1_apply (P : LinBN) (y : Fin 1024 → Fin 512 → ℝ)
    (v128 : FVec Ideal S1024x512 .bf16) (v129 : Vec Ideal S512x512 .f32) (v133 v137 : Vec Ideal S1x512 .f32)
    (hy : ∀ (n : Fin 1024) (j : Fin 512), v128 (ix2 n j) = (y n j : EReal))
    (hW : ∀ j c : Fin 512, v129 (ix2 j c) = (P.W c j : EReal))
    (hs : ∀ c : Fin 512, v133 (ix2 (0 : Fin 1) c) = (scale P c : EReal))
    (ht : ∀ c : Fin 512, v137 (ix2 (0 : Fin 1) c) = (shift P c : EReal))
    (n : Fin 1024) (c : Fin 512) :
    k0_pay1 (F := Ideal) v128 v129 v133 v137 (ix3 (0 : Fin 1) n c) = ((linbnKer P y n c : ℝ) : EReal) := by
  unfold k0_pay1
  rw [addUnitCast_apply, addf_apply, mulf_apply, rowBroadcast_apply, rowBroadcast_apply, outDot_apply]
  rw [shapeCast_self, shapeCast_self, shapeCast_self, hs, ht]
  rw [← Cert.Reals.linbnKer_coe]
  congr 2
  refine Finset.sum_congr rfl fun k _ => ?_
  rw [truncf_apply, hy, hW]

/-- The three whole-buffer rectangles start at the origin. -/
private theorem origin3 : (![0, 0, 0] : Fin 3 → Nat) = fun _ => 0 :=
  funext fun a => by match a with | ⟨0, _⟩ => rfl | ⟨1, _⟩ => rfl | ⟨2, _⟩ => rfl
private theorem origin2 : (![0, 0] : Fin 2 → Nat) = fun _ => 0 :=
  funext fun a => by match a with | ⟨0, _⟩ => rfl | ⟨1, _⟩ => rfl

/-- What the body leaves in the output window's buffer, at an index. -/
theorem out0_13_apply (Pq Pk Pv Pp : LinBN) (z : Fin 1024 → Fin 512 → ℝ)
    (x0 : Vec Ideal S1x1024x512 .f32) (x1 : Vec Ideal S512x512 .f32) (x2 x3 : Vec Ideal S1x512 .f32) (x4 : Vec Ideal S512x512 .f32) (x5 x6 : Vec Ideal S1x512 .f32) (x7 : Vec Ideal S512x512 .f32) (x8 x9 : Vec Ideal S1x512 .f32) (x10 : Vec Ideal S512x512 .f32) (x11 x12 : Vec Ideal S1x512 .f32)
    (h0 : ∀ (n : Fin 1024) (j : Fin 512), x0 (ix3 (0 : Fin 1) n j) = (z n j : EReal))
    (h1 : ∀ j c : Fin 512, x1 (ix2 j c) = (Pq.W c j : EReal))
    (h2 : ∀ c : Fin 512, x2 (ix2 (0 : Fin 1) c) = (scale Pq c : EReal))
    (h3 : ∀ c : Fin 512, x3 (ix2 (0 : Fin 1) c) = (shift Pq c : EReal))
    (h4 : ∀ j c : Fin 512, x4 (ix2 j c) = (Pk.W c j : EReal))
    (h5 : ∀ c : Fin 512, x5 (ix2 (0 : Fin 1) c) = (scale Pk c : EReal))
    (h6 : ∀ c : Fin 512, x6 (ix2 (0 : Fin 1) c) = (shift Pk c : EReal))
    (h7 : ∀ j c : Fin 512, x7 (ix2 j c) = (Pv.W c j : EReal))
    (h8 : ∀ c : Fin 512, x8 (ix2 (0 : Fin 1) c) = (scale Pv c : EReal))
    (h9 : ∀ c : Fin 512, x9 (ix2 (0 : Fin 1) c) = (shift Pv c : EReal))
    (h10 : ∀ j c : Fin 512, x10 (ix2 j c) = (Pp.W c j : EReal))
    (h11 : ∀ c : Fin 512, x11 (ix2 (0 : Fin 1) c) = (scale Pp c : EReal))
    (h12 : ∀ c : Fin 512, x12 (ix2 (0 : Fin 1) c) = (shift Pp c : EReal))
    (n : Fin 1024) (c : Fin 512) :
    out0_13 (F := Ideal) x0 x1 x2 x3 x4 x5 x6 x7 x8 x9 x10 x11 x12 (ix3 (0 : Fin 1) n c)
      = ((outSlabKer Pq Pk Pv Pp z n c : ℝ) : EReal) := by
  unfold out0_13
  rw [View.canon_unit_zero origin3]
  simp only [View.ld_unit_zero (S := S1x1024x512) origin3, View.ld_unit_zero (S := S512x512) origin2,
    View.ld_unit_zero (S := S1x512) origin2]
  -- the three input layers of the slab
  have hq := pay3_apply Pq z x0 x1 x2 x3 h0 h1 h2 h3
  have hk := pay4_apply Pk z x0 x4 x5 x6 h0 h4 h5 h6
  have hv := pay56_apply Pv z x0 x7 x8 x9 h0 h7 h8 h9
  -- the first four heads, then all eight side by side
  have a0 := pay7_apply (linbnKer Pq z) (linbnKer Pk z) (linbnKer Pv z)
    (k0_pay3 (F := Ideal) x0 x1 x2 x3) (k0_pay4 (F := Ideal) x0 x4 x5 x6) (k0_pay5 (F := Ideal) x0 x7 x8) x9 hq hk hv
  have a1 := pay8_apply (linbnKer Pq z) (linbnKer Pk z) (linbnKer Pv z)
    (k0_pay3 (F := Ideal) x0 x1 x2 x3) (k0_pay4 (F := Ideal) x0 x4 x5 x6) (k0_pay5 (F := Ideal) x0 x7 x8) x9 hq hk hv
  have a2 := pay9_apply (linbnKer Pq z) (linbnKer Pk z) (linbnKer Pv z)
    (k0_pay3 (F := Ideal) x0 x1 x2 x3) (k0_pay4 (F := Ideal) x0 x4 x5 x6) (k0_pay5 (F := Ideal) x0 x7 x8) x9 hq hk hv
  have a3 := pay10_apply (linbnKer Pq z) (linbnKer Pk z) (linbnKer Pv z)
    (k0_pay3 (F := Ideal) x0 x1 x2 x3) (k0_pay4 (F := Ideal) x0 x4 x5 x6) (k0_pay5 (F := Ideal) x0 x7 x8) x9 hq hk hv
  have hy := pay11_apply (linbnKer Pq z) (linbnKer Pk z) (linbnKer Pv z)
    (k0_pay3 (F := Ideal) x0 x1 x2 x3) (k0_pay4 (F := Ideal) x0 x4 x5 x6)
    (k0_pay6 (F := Ideal) (k0_pay5 (F := Ideal) x0 x7 x8) x9)
    (k0_pay7 (F := Ideal) (k0_pay3 (F := Ideal) x0 x1 x2 x3) (k0_pay4 (F := Ideal) x0 x4 x5 x6) (k0_pay5 (F := Ideal) x0 x7 x8) x9)
    (k0_pay8 (F := Ideal) (k0_pay3 (F := Ideal) x0 x1 x2 x3) (k0_pay4 (F := Ideal) x0 x4 x5 x6) (k0_pay5 (F := Ideal) x0 x7 x8) x9)
    (k0_pay9 (F := Ideal) (k0_pay3 (F := Ideal) x0 x1 x2 x3) (k0_pay4 (F := Ideal) x0 x4 x5 x6) (k0_pay5 (F := Ideal) x0 x7 x8) x9)
    (k0_pay10 (F := Ideal) (k0_pay3 (F := Ideal) x0 x1 x2 x3) (k0_pay4 (F := Ideal) x0 x4 x5 x6) (k0_pay5 (F := Ideal) x0 x7 x8) x9)
    hq hk hv a0 a1 a2 a3
  -- the output layer over them
  exact pay1_apply Pp (attn (linbnKer Pq z) (linbnKer Pk z) (linbnKer Pv z)) _ x10 x11 x12 hy h10 h11 h12 n c

end Cert.KernelIdeal.Hand

end
-- ==== Proof.KerBlocks.lean ====
/-
  From blocks to the array, and through the host operation after the region.  Grid point `t` (of 32)
  stages slab `t` of the input and every weight, scale and shift array whole, and writes its result
  back as slab `t` of the output array; the 32 slabs cover it.  So after the region the output array
  at `(i, n, c)` is the reading of `outSlabKer` of input slab `i`, and the program's result, its reshape
  to `4 x 8 x 1024 x 512`, at `(t, b, n, c)` that of slab `(t, b)`.
-/
import proofs.«148636_j56599079026971_1_alg».proof.Proof.Gen.KernelIdeal.Frame
import proofs.«148636_j56599079026971_1_alg».proof.Proof.KerHost
import proofs.«148636_j56599079026971_1_alg».proof.Proof.KerOut
import Idealize.ShloMosaic.Lib.Pipeline.Value
import Idealize.ShloMosaic.Lib.StableHlo.Run

noncomputable section

namespace Cert.KernelIdeal.Hand

open Cert.KernelIdeal Cert.KernelIdeal.Gen Cert.Spec
open Idealize.ShloMosaic Idealize.ShloMosaic.TcCoe Idealize.ShloMosaic.ValueIdx Idealize.SL.Sem

variable {m : (ℓ : Loc nD τ sig) → Buf (Elt Ideal) ℓ} {c : Dev nD}
  {x : Fin 4 → Fin 8 → Fin 1024 → Fin 512 → ℝ} {Pq Pk Pv Pp : LinBN}

/-- The grid has 32 points, so a point is a slab number. -/
theorem pt_lt (t : Fin cfg0.N) : t.val < 32 := by
  have h : cfg0.N = 32 := N_0
  have := t.isLt
  omega

/-- The slab a grid point works on. -/
abbrev slabIx (t : Fin cfg0.N) : Fin 32 := ⟨t.val, pt_lt t⟩

/-- The output array's contents after the region, as a function of the index: slab `i 0` of the input through
    the kernel's arithmetic, at row `i 1` and channel `i 2`. -/
abbrev G (x : Fin 4 → Fin 8 → Fin 1024 → Fin 512 → ℝ) (Pq Pk Pv Pp : LinBN) : S32x1024x512.Idx → EReal :=
  fun i => ((outSlabKer Pq Pk Pv Pp (slabOf x (i 0)) (i 1) (i 2) : ℝ) : EReal)

/-! ## The printed index maps, decided over the grid

The input window 0 and the output window 13 sit at block `(t, 0, 0)`; every other window at block `(0, 0)`. -/

theorem idx_io : ∀ t : Fin cfg0.N,
    win0_0.index t (0 : Fin 3) = t.val ∧ win0_0.index t (1 : Fin 3) = 0 ∧ win0_0.index t (2 : Fin 3) = 0
    ∧ win0_13.index t (0 : Fin 3) = t.val ∧ win0_13.index t (1 : Fin 3) = 0 ∧ win0_13.index t (2 : Fin 3) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)

/-! ## Each staged block, read where its window's rectangle says

A block's coordinate in its array is, per axis, the block index times the block's size plus the coordinate inside
the block. -/

/-- Block element `(0, n, j)` of window 0 at point `t` sits in the input array at `(t, n, j)`. -/
theorem emb0 (t : Fin cfg0.N) (n : Fin 1024) (j : Fin 512) :
    ((cfg0.win 0).blk t).view.emb (ix3 (0 : Fin 1) n j) = (ix3 (slabIx t) n j : S32x1024x512.Idx) := by
  obtain ⟨e0, e1, e2, -, -, -⟩ := idx_io t
  funext a; apply Fin.ext
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 512 + 1 * j.val = j.val; omega

/-- Block element `(0, n, j)` of window 13 at point `t` sits in the output array at `(t, n, j)`. -/
theorem emb13 (t : Fin cfg0.N) (n : Fin 1024) (j : Fin 512) :
    ((cfg0.win 13).blk t).view.emb (ix3 (0 : Fin 1) n j) = (ix3 (slabIx t) n j : S32x1024x512.Idx) := by
  obtain ⟨-, -, -, e0, e1, e2⟩ := idx_io t
  funext a; apply Fin.ext
  match a with
  | ⟨0, _⟩ => show win0_13.index t (0 : Fin 3) * 1 + 1 * 0 = t.val; omega
  | ⟨1, _⟩ => show win0_13.index t (1 : Fin 3) * 1024 + 1 * n.val = n.val; omega
  | ⟨2, _⟩ => show win0_13.index t (2 : Fin 3) * 512 + 1 * j.val = j.val; omega

/-- Window 0's block at point `t` is slab `t` of the input. -/
theorem blk0_apply (hA : ArgsAre m c x Pq Pk Pv Pp) (t : Fin cfg0.N) (n : Fin 1024) (j : Fin 512) :
    (iblk m c 0 t : Vec Ideal S1x1024x512 .f32) (ix3 (0 : Fin 1) n j) = (slabOf x (slabIx t) n j : EReal) := by
  show V m c main_v40 (((cfg0.win 0).blk t).view.emb (ix3 (0 : Fin 1) n j)) = _
  rw [emb0 t n j]
  exact V_x hA (slabIx t) n j

/-- Window 1's block is the whole transposed weight of the query layer. -/
theorem blk1_apply (hA : ArgsAre m c x Pq Pk Pv Pp) (t : Fin cfg0.N) (j c' : Fin 512) :
    (iblk m c 1 t : Vec Ideal S512x512 .f32) (ix2 j c') = (Pq.W c' j : EReal) := by
  have e : ((cfg0.win 1).blk t).view.emb (ix2 j c') = (ix2 j c' : S512x512.Idx) := by
    obtain ⟨e0, e1⟩ := idx1 t
    funext a; apply Fin.ext
    match a with
    | ⟨0, _⟩ => show win0_1.index t (0 : Fin 2) * 512 + 1 * j.val = j.val; omega
    | ⟨1, _⟩ => show win0_1.index t (1 : Fin 2) * 512 + 1 * c'.val = c'.val; omega
  show V m c main_v36 (((cfg0.win 1).blk t).view.emb (ix2 j c')) = _
  rw [e]
  exact V_Wq hA j c'

/-- Window 2's block is the query layer's scale row. -/
theorem blk2_apply (hA : ArgsAre m c x Pq Pk Pv Pp) (t : Fin cfg0.N) (c' : Fin 512) :
    (iblk m c 2 t : Vec Ideal S1x512 .f32) (ix2 (0 : Fin 1) c') = (scale Pq c' : EReal) := by
  have e : ((cfg0.win 2).blk t).view.emb (ix2 (0 : Fin 1) c') = (ix2 (0 : Fin 1) c' : S1x512.Idx) := by
    obtain ⟨e0, e1⟩ := idx2 t
    funext a; apply Fin.ext
    match a with
    | ⟨0, _⟩ => show win0_2.index t (0 : Fin 2) * 1 + 1 * 0 = 0; omega
    | ⟨1, _⟩ => show win0_2.index t (1 : Fin 2) * 512 + 1 * c'.val = c'.val; omega
  show V m c main_v7 (((cfg0.win 2).blk t).view.emb (ix2 (0 : Fin 1) c')) = _
  rw [e]
  exact V_sq hA c'

/-- Window 3's block is the query layer's shift row. -/
theorem blk3_apply (hA : ArgsAre m c x Pq Pk Pv Pp) (t : Fin cfg0.N) (c' : Fin 512) :
    (iblk m c 3 t : Vec Ideal S1x512 .f32) (ix2 (0 : Fin 1) c') = (shift Pq c' : EReal) := by
  have e : ((cfg0.win 3).blk t).view.emb (ix2 (0 : Fin 1) c') = (ix2 (0 : Fin 1) c' : S1x512.Idx) := by
    obtain ⟨e0, e1⟩ := idx3 t
    funext a; apply Fin.ext
    match a with
    | ⟨0, _⟩ => show win0_3.index t (0 : Fin 2) * 1 + 1 * 0 = 0; omega
    | ⟨1, _⟩ => show win0_3.index t (1 : Fin 2) * 512 + 1 * c'.val = c'.val; omega
  show V m c main_v8 (((cfg0.win 3).blk t).view.emb (ix2 (0 : Fin 1) c')) = _
  rw [e]
  exact V_tq hA c'

/-- Window 4's block is the whole transposed weight of the key layer. -/
theorem blk4_apply (hA : ArgsAre m c x Pq Pk Pv Pp) (t : Fin cfg0.N) (j c' : Fin 512) :
    (iblk m c 4 t : Vec Ideal S512x512 .f32) (ix2 j c') = (Pk.W c' j : EReal) := by
  have e : ((cfg0.win 4).blk t).view.emb (ix2 j c') = (ix2 j c' : S512x512.Idx) := by
    obtain ⟨e0, e1⟩ := idx4 t
    funext a; apply Fin.ext
    match a with
    | ⟨0, _⟩ => show win0_4.index t (0 : Fin 2) * 512 + 1 * j.val = j.val; omega
    | ⟨1, _⟩ => show win0_4.index t (1 : Fin 2) * 512 + 1 * c'.val = c'.val; omega
  show V m c main_v37 (((cfg0.win 4).blk t).view.emb (ix2 j c')) = _
  rw [e]
  exact V_Wk hA j c'

/-- Window 5's block is the key layer's scale row. -/
theorem blk5_apply (hA : ArgsAre m c x Pq Pk Pv Pp) (t : Fin cfg0.N) (c' : Fin 512) :
    (iblk m c 5 t : Vec Ideal S1x512 .f32) (ix2 (0 : Fin 1) c') = (scale Pk c' : EReal) := by
  have e : ((cfg0.win 5).blk t).view.emb (ix2 (0 : Fin 1) c') = (ix2 (0 : Fin 1) c' : S1x512.Idx) := by
    obtain ⟨e0, e1⟩ := idx5 t
    funext a; apply Fin.ext
    match a with
    | ⟨0, _⟩ => show win0_5.index t (0 : Fin 2) * 1 + 1 * 0 = 0; omega
    | ⟨1, _⟩ => show win0_5.index t (1 : Fin 2) * 512 + 1 * c'.val = c'.val; omega
  show V m c main_v16 (((cfg0.win 5).blk t).view.emb (ix2 (0 : Fin 1) c')) = _
  rw [e]
  exact V_sk hA c'

/-- Window 6's block is the key layer's shift row. -/
theorem blk6_apply (hA : ArgsAre m c x Pq Pk Pv Pp) (t : Fin cfg0.N) (c' : Fin 512) :
    (iblk m c 6 t : Vec Ideal S1x512 .f32) (ix2 (0 : Fin 1) c') = (shift Pk c' : EReal) := by
  have e : ((cfg0.win 6).blk t).view.emb (ix2 (0 : Fin 1) c') = (ix2 (0 : Fin 1) c' : S1x512.Idx) := by
    obtain ⟨e0, e1⟩ := idx6 t
    funext a; apply Fin.ext
    match a with
    | ⟨0, _⟩ => show win0_6.index t (0 : Fin 2) * 1 + 1 * 0 = 0; omega
    | ⟨1, _⟩ => show win0_6.index t (1 : Fin 2) * 512 + 1 * c'.val = c'.val; omega
  show V m c main_v17 (((cfg0.win 6).blk t).view.emb (ix2 (0 : Fin 1) c')) = _
  rw [e]
  exact V_tk hA c'

/-- Window 7's block is the whole transposed weight of the value layer. -/
theorem blk7_apply (hA : ArgsAre m c x Pq Pk Pv Pp) (t : Fin cfg0.N) (j c' : Fin 512) :
    (iblk m c 7 t : Vec Ideal S512x512 .f32) (ix2 j c') = (Pv.W c' j : EReal) := by
  have e : ((cfg0.win 7).blk t).view.emb (ix2 j c') = (ix2 j c' : S512x512.Idx) := by
    obtain ⟨e0, e1⟩ := idx7 t
    funext a; apply Fin.ext
    match a with
    | ⟨0, _⟩ => show win0_7.index t (0 : Fin 2) * 512 + 1 * j.val = j.val; omega
    | ⟨1, _⟩ => show win0_7.index t (1 : Fin 2) * 512 + 1 * c'.val = c'.val; omega
  show V m c main_v38 (((cfg0.win 7).blk t).view.emb (ix2 j c')) = _
  rw [e]
  exact V_Wv hA j c'

/-- Window 8's block is the value layer's scale row. -/
theorem blk8_apply (hA : ArgsAre m c x Pq Pk Pv Pp) (t : Fin cfg0.N) (c' : Fin 512) :
    (iblk m c 8 t : Vec Ideal S1x512 .f32) (ix2 (0 : Fin 1) c') = (scale Pv c' : EReal) := by
  have e : ((cfg0.win 8).blk t).view.emb (ix2 (0 : Fin 1) c') = (ix2 (0 : Fin 1) c' : S1x512.Idx) := by
    obtain ⟨e0, e1⟩ := idx8 t
    funext a; apply Fin.ext
    match a with
    | ⟨0, _⟩ => show win0_8.index t (0 : Fin 2) * 1 + 1 * 0 = 0; omega
    | ⟨1, _⟩ => show win0_8.index t (1 : Fin 2) * 512 + 1 * c'.val = c'.val; omega
  show V m c main_v25 (((cfg0.win 8).blk t).view.emb (ix2 (0 : Fin 1) c')) = _
  rw [e]
  exact V_sv hA c'

/-- Window 9's block is the value layer's shift row. -/
theorem blk9_apply (hA : ArgsAre m c x Pq Pk Pv Pp) (t : Fin cfg0.N) (c' : Fin 512) :
    (iblk m c 9 t : Vec Ideal S1x512 .f32) (ix2 (0 : Fin 1) c') = (shift Pv c' : EReal) := by
  have e : ((cfg0.win 9).blk t).view.emb (ix2 (0 : Fin 1) c') = (ix2 (0 : Fin 1) c' : S1x512.Idx) := by
    obtain ⟨e0, e1⟩ := idx9 t
    funext a; apply Fin.ext
    match a with
    | ⟨0, _⟩ => show win0_9.index t (0 : Fin 2) * 1 + 1 * 0 = 0; omega
    | ⟨1, _⟩ => show win0_9.index t (1 : Fin 2) * 512 + 1 * c'.val = c'.val; omega
  show V m c main_v26 (((cfg0.win 9).blk t).view.emb (ix2 (0 : Fin 1) c')) = _
  rw [e]
  exact V_tv hA c'

/-- Window 10's block is the whole transposed weight of the output layer. -/
theorem blk10_apply (hA : ArgsAre m c x Pq Pk Pv Pp) (t : Fin cfg0.N) (j c' : Fin 512) :
    (iblk m c 10 t : Vec Ideal S512x512 .f32) (ix2 j c') = (Pp.W c' j : EReal) := by
  have e : ((cfg0.win 10).blk t).view.emb (ix2 j c') = (ix2 j c' : S512x512.Idx) := by
    obtain ⟨e0, e1⟩ := idx10 t
    funext a; apply Fin.ext
    match a with
    | ⟨0, _⟩ => show win0_10.index t (0 : Fin 2) * 512 + 1 * j.val = j.val; omega
    | ⟨1, _⟩ => show win0_10.index t (1 : Fin 2) * 512 + 1 * c'.val = c'.val; omega
  show V m c main_v39 (((cfg0.win 10).blk t).view.emb (ix2 j c')) = _
  rw [e]
  exact V_Wp hA j c'

/-- Window 11's block is the output layer's scale row. -/
theorem blk11_apply (hA : ArgsAre m c x Pq Pk Pv Pp) (t : Fin cfg0.N) (c' : Fin 512) :
    (iblk m c 11 t : Vec Ideal S1x512 .f32) (ix2 (0 : Fin 1) c') = (scale Pp c' : EReal) := by
  have e : ((cfg0.win 11).blk t).view.emb (ix2 (0 : Fin 1) c') = (ix2 (0 : Fin 1) c' : S1x512.Idx) := by
    obtain ⟨e0, e1⟩ := idx11 t
    funext a; apply Fin.ext
    match a with
    | ⟨0, _⟩ => show win0_11.index t (0 : Fin 2) * 1 + 1 * 0 = 0; omega
    | ⟨1, _⟩ => show win0_11.index t (1 : Fin 2) * 512 + 1 * c'.val = c'.val; omega
  show V m c main_v34 (((cfg0.win 11).blk t).view.emb (ix2 (0 : Fin 1) c')) = _
  rw [e]
  exact V_sp hA c'

/-- Window 12's block is the output layer's shift row. -/
theorem blk12_apply (hA : ArgsAre m c x Pq Pk Pv Pp) (t : Fin cfg0.N) (c' : Fin 512) :
    (iblk m c 12 t : Vec Ideal S1x512 .f32) (ix2 (0 : Fin 1) c') = (shift Pp c' : EReal) := by
  have e : ((cfg0.win 12).blk t).view.emb (ix2 (0 : Fin 1) c') = (ix2 (0 : Fin 1) c' : S1x512.Idx) := by
    obtain ⟨e0, e1⟩ := idx12 t
    funext a; apply Fin.ext
    match a with
    | ⟨0, _⟩ => show win0_12.index t (0 : Fin 2) * 1 + 1 * 0 = 0; omega
    | ⟨1, _⟩ => show win0_12.index t (1 : Fin 2) * 512 + 1 * c'.val = c'.val; omega
  show V m c main_v35 (((cfg0.win 12).blk t).view.emb (ix2 (0 : Fin 1) c')) = _
  rw [e]
  exact V_tp hA c'

/-! ## What a point writes back, and the array the write-backs leave -/

/-- What point `t` writes back is block `t` of `G`: the body's result on the thirteen staged blocks, which are slab
    `t` of the input and the whole weight, scale and shift arrays. -/
theorem flushed13_eq (hA : ArgsAre m c x Pq Pk Pv Pp) (t : Fin cfg0.N) :
    (dats m 0 c).flushed 13 t = ((cfg0.win 13).blk t).view.read (Elt Ideal) (G x Pq Pk Pv Pp) := by
  show (cfg0.win 13).cut (grid0.coords t) ((dats m 0 c).after 13 t) = _
  rw [after0_13]
  funext y
  have hy0 : (y 0).val < 1 := (y 0).isLt
  obtain ⟨n, j, rfl⟩ : ∃ (n : Fin 1024) (j : Fin 512), y = ix3 (0 : Fin 1) n j :=
    ⟨y 1, y 2, funext fun a => Fin.ext (by
      match a with
      | ⟨0, _⟩ => show (y 0).val = 0; omega
      | ⟨1, _⟩ => rfl
      | ⟨2, _⟩ => rfl)⟩
  show out0_13 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (ix3 (0 : Fin 1) n j)
    = G x Pq Pk Pv Pp (((cfg0.win 13).blk t).view.emb (ix3 (0 : Fin 1) n j))
  rw [emb13 t n j]
  exact out0_13_apply Pq Pk Pv Pp (slabOf x (slabIx t))
    (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (blk0_apply hA t) (blk1_apply hA t) (blk2_apply hA t) (blk3_apply hA t) (blk4_apply hA t) (blk5_apply hA t)
    (blk6_apply hA t) (blk7_apply hA t) (blk8_apply hA t) (blk9_apply hA t) (blk10_apply hA t) (blk11_apply hA t)
    (blk12_apply hA t) n j

/-- An index of the output array is in point `t`'s block iff each coordinate is in the block's range on its axis. -/
theorem mem_blk13 (t : Fin cfg0.N) (i : S32x1024x512.Idx) :
    i ∈ ((cfg0.win 13).blk t).view.set ↔ ∀ a : Fin 3, win0_13.index t a * S1x1024x512.size a ≤ (i a).val ∧ (i a).val < win0_13.index t a * S1x1024x512.size a + S1x1024x512.size a := by
  show i ∈ ((View.whole main_v41).slice (win0_13.rect t)).set ↔ _
  rw [View.set_slice_whole, Rect.mem_set_unit]
  exact Iff.rfl

/-- The 32 blocks cover the output array: index `(i, n, c)` is in the block of point `i`. -/
theorem cover13 (i : S32x1024x512.Idx) :
    ∃ t : Fin cfg0.N, (cfg0.win 13).flush t = true ∧ i ∈ ((cfg0.win 13).blk t).view.set := by
  have hN : cfg0.N = 32 := N_0
  have h0 : (i 0).val < 32 := (i 0).isLt
  have h1 : (i 1).val < 1024 := (i 1).isLt
  have h2 : (i 2).val < 512 := (i 2).isLt
  obtain ⟨t, ht⟩ : ∃ t : Fin cfg0.N, t.val = (i 0).val := ⟨⟨(i 0).val, by omega⟩, rfl⟩
  refine ⟨t, flush0_13 t, ?_⟩
  rw [mem_blk13]
  obtain ⟨-, -, -, e0, e1, e2⟩ := idx_io t
  intro a
  match a with
  | ⟨0, _⟩ => show win0_13.index t (0 : Fin 3) * 1 ≤ (i 0).val ∧ (i 0).val < win0_13.index t (0 : Fin 3) * 1 + 1; omega
  | ⟨1, _⟩ => show win0_13.index t (1 : Fin 3) * 1024 ≤ (i 1).val ∧ (i 1).val < win0_13.index t (1 : Fin 3) * 1024 + 1024; omega
  | ⟨2, _⟩ => show win0_13.index t (2 : Fin 3) * 512 ≤ (i 2).val ∧ (i 2).val < win0_13.index t (2 : Fin 3) * 512 + 512; omega

/-- The output array after the region, as one function of the index. -/
theorem final13 (hA : ArgsAre m c x Pq Pk Pv Pp) :
    (dats m 0 c).arrAt 13 cfg0.N
      = fun i : S32x1024x512.Idx => ((outSlabKer Pq Pk Pv Pp (slabOf x (i 0)) (i 1) (i 2) : ℝ) : EReal) :=
  (dats m 0 c).arrAt_eq_of_cover 13 (G x Pq Pk Pv Pp) (fun t _ => flushed13_eq hA t) cover13

/-- The program's result buffer after the host operation that follows the region. -/
theorem kernel_result (hA : ArgsAre m c x Pq Pk Pv Pp) :
    Pipeline.afterTail₀ cfgs (dats m) 0 (V0 m) [hostOps1] c main_v42
      = fun i : S4x8x1024x512.Idx => ((outSlabKer Pq Pk Pv Pp (x (i 0) (i 1)) (i 2) (i 3) : ℝ) : EReal) := by
  unfold Pipeline.afterTail₀
  show StableHlo.after hostOps1 _ (Proc.devRef .tc main_v42) = _
  after_results
  have e : Pipeline.withArrays (cfgs 0).spec c (V0 m c) (fun w => (dats m 0 c).arrAt w (cfgs 0).N)
        (Proc.devRef .tc main_v41)
      = fun i : S32x1024x512.Idx => ((outSlabKer Pq Pk Pv Pp (slabOf x (i 0)) (i 1) (i 2) : ℝ) : EReal) :=
    (Pipeline.withArrays_arr spec0 launch0.win.arr_inj c _ _ 13).trans (final13 hA)
  funext i
  have h0 : (i 0).val < 4 := (i 0).isLt
  have h1 : (i 1).val < 8 := (i 1).isLt
  show shapeCast S4x8x1024x512 (Pipeline.withArrays (cfgs 0).spec c (V0 m c) (fun w => (dats m 0 c).arrAt w (cfgs 0).N)
        (Proc.devRef .tc main_v41)) shapeCasts_S32x1024x512_S4x8x1024x512 i = _
  rw [e]
  refine (shapeCast_apply _ shapeCasts_S32x1024x512_S4x8x1024x512 i
    (ix3 (⟨8 * (i 0).val + (i 1).val, by omega⟩ : Fin 32) (i 2) (i 3)) ?_).trans ?_
  · rw [Shape.rowMajor_val_three, Shape.rowMajor_val_four]
    show ((8 * (i 0).val + (i 1).val) * 1024 + (i 2).val) * 512 + (i 3).val
      = (((i 0).val * 8 + (i 1).val) * 1024 + (i 2).val) * 512 + (i 3).val
    omega
  · show ((outSlabKer Pq Pk Pv Pp (slabOf x ⟨8 * (i 0).val + (i 1).val, _⟩) (i 2) (i 3) : ℝ) : EReal) = _
    rw [slabOf_mk x (i 0) (i 1)]

end Cert.KernelIdeal.Hand

end
-- ==== Proof.KerRun.lean ====
/-
  The idealized kernel's run with its result named.  The generated frame run ends with every array of
  the pipeline at what the proof data compute and every other buffer as the host operation after
  the region leaves it; read at the result buffer (the reshape of the output array) this is, on
  arguments that are readings of reals with nonnegative variances, the reading of `outSlab` slab by
  slab — the kernel's folded form `outSlabKer`, which over the reals is the reference's form.
-/
import proofs.«148636_j56599079026971_1_alg».proof.Proof.Gen.KernelIdeal.Frame
import proofs.«148636_j56599079026971_1_alg».proof.Proof.KerBlocks

noncomputable section

namespace Cert.KernelIdeal.Hand

open Cert.KernelIdeal Cert.KernelIdeal.Gen Cert.Spec
open Idealize.ShloMosaic Idealize.ShloMosaic.TcCoe Idealize.ShloMosaic.ValueIdx Idealize.SL.Sem

/-- Every weakly fair execution of the idealized kernel ends with the result buffer at the reading of
    `outSlab` of each slab and the arguments unchanged. -/
theorem run_value (m : (ℓ : Loc nD τ sig) → Buf (Elt Ideal) ℓ) (ρ : Dev nD → PrngReg)
    (x : Dev nD → Fin 4 → Fin 8 → Fin 1024 → Fin 512 → ℝ) (Pq Pk Pv Pp : Dev nD → LinBN)
    (hA : ∀ c, ArgsAre m c (x c) (Pq c) (Pk c) (Pv c) (Pp c)) :
    θ_run defs (onTc (τ := τ) (main (F := Ideal))) ⟨m, fun _ => 0, ρ⟩ (fun r => ∀ c : Dev nD,
      r.2.mem ((c.tc : Thread nD τ).loc main_v42)
        = (fun i : S4x8x1024x512.Idx => ((outSlab (Pq c) (Pk c) (Pv c) (Pp c) (x c (i 0) (i 1)) (i 2) (i 3) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨
      (((h c).2 main_v42 (Pipeline.mem_restRefs_of main_v42 (by decide) (by decide))).trans
        ((kernel_result (hA c)).trans (by
          funext i
          rw [outSlabKer_eq_outSlab]))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c)),
      (((h c).2 main_arg20 (Pipeline.mem_restRefs_of main_arg20 (by decide) (by decide))).trans (W_main_arg20 m (dats m) c)),
      (((h c).2 main_arg21 (Pipeline.mem_restRefs_of main_arg21 (by decide) (by decide))).trans (W_main_arg21 m (dats m) c)),
      (((h c).2 main_arg22 (Pipeline.mem_restRefs_of main_arg22 (by decide) (by decide))).trans (W_main_arg22 m (dats m) c)),
      (((h c).2 main_arg23 (Pipeline.mem_restRefs_of main_arg23 (by decide) (by decide))).trans (W_main_arg23 m (dats m) c)),
      (((h c).2 main_arg24 (Pipeline.mem_restRefs_of main_arg24 (by decide) (by decide))).trans (W_main_arg24 m (dats m) c))⟩) (run_main m ρ)

end Cert.KernelIdeal.Hand

end
-- ==== Proof.RefLayers.lean ====
/-
  The reference's three input layers (queries, keys, values), each read at an index: on arguments
  that are readings of reals with nonnegative variances, the layer's output at `(t, b, n, c)` is the
  reading of `linbnRef` of slab `(t, b)` at `(n, c)`.
-/
import proofs.«148636_j56599079026971_1_alg».proof.Proof.Gen.ReferenceIdeal.Read
import proofs.«148636_j56599079026971_1_alg».proof.Proof.Layer
import proofs.«148636_j56599079026971_1_alg».proof.Proof.Reals
import proofs.«148636_j56599079026971_1_alg».proof.Proof.Consts

noncomputable section

namespace Cert.ReferenceIdeal.Hand

open Cert.ReferenceIdeal Cert.ReferenceIdeal.Gen Cert.ReferenceIdeal.Read Cert.Spec
open Idealize.ShloMosaic Idealize.ShloMosaic.TcCoe Idealize.ShloMosaic.ValueIdx Idealize.ShloMosaic.StableHlo

/-- The query layer (`%16` of the reference). -/
theorem layer_q (P : LinBN) (xr : Fin 4 → Fin 8 → Fin 1024 → Fin 512 → ℝ)
    (x0 : (⟨S4x8x1024x512, .f32⟩ : BufTy).Contents (Elt Ideal)) (x1 : (⟨S512x512, .f32⟩ : BufTy).Contents (Elt Ideal))
    (x2 x3 x4 x5 x6 : (⟨S512, .f32⟩ : BufTy).Contents (Elt Ideal))
    (hx : InputIs xr x0) (hL : LayerAre P x1 x2 x3 x4 x5 x6)
    (t : Fin 4) (b : Fin 8) (n : Fin 1024) (c : Fin 512) :
    val_main_v16 (F := Ideal) x0 x1 x2 x3 x4 x5 x6 (ix4 t b n c) = ((linbnRef P (xr t b) n c : ℝ) : EReal) := by
  -- the composed index maps at `(t, b, n, c)`: the contraction reads row `(t, b, n, ·)` of the input against row
  -- `c` of the weight, and every per-channel vector (bias, mean, scale, offset) is read at channel `c`
  have eL : ∀ k : Fin 512, lidx_main_v0 (ix4 t b n c) k = ix4 t b n k := fun k =>
    funext fun a => Fin.ext (by match a with | ⟨0, _⟩ => rfl | ⟨1, _⟩ => rfl | ⟨2, _⟩ => rfl | ⟨3, _⟩ => rfl)
  have eR : ∀ k : Fin 512, ridx_main_v0 (ix4 t b n c) k = ix2 c k := fun k =>
    funext fun a => Fin.ext (by match a with | ⟨0, _⟩ => rfl | ⟨1, _⟩ => rfl)
  have eBias : idx_main_v1 (idx_main_v2 (ix4 t b n c)) = ix1 c :=
    funext fun a => Fin.ext (by match a with | ⟨0, _⟩ => rfl)
  have eMean : idx_main_v4 (idx_main_v5 (ix4 t b n c)) = ix1 c :=
    funext fun a => Fin.ext (by match a with | ⟨0, _⟩ => rfl)
  have eScale : idx_main_v11 (idx_main_v12 (ix4 t b n c)) = ix1 c :=
    funext fun a => Fin.ext (by match a with | ⟨0, _⟩ => rfl)
  have eOffset : idx_main_v14 (idx_main_v15 (ix4 t b n c)) = ix1 c :=
    funext fun a => Fin.ext (by match a with | ⟨0, _⟩ => rfl)
  -- read the layer down to its arguments: add (mul (sub (add (dot, bias), mean), gain * rsqrt (var + eps)), offset)
  rw [val_main_v16_apply, val_main_v13_apply, val_main_v6_apply, val_main_v3_apply, val_main_v0_apply,
    val_main_v2_apply, val_main_v1_apply, val_main_v5_apply, val_main_v4_apply, val_main_v12_apply,
    val_main_v11_apply, val_main_v10_apply, val_main_v9_apply, val_main_v8_apply, val_main_v7_apply,
    val_main_cst_apply, val_main_v15_apply, val_main_v14_apply, eBias, eMean, eScale, eOffset]
  simp only [eL, eR]
  -- the arguments are readings of reals; the operations are those of the extended reals
  have hx' : ∀ k : Fin 512, x0 (ix4 t b n k) = ((xr t b n k : ℝ) : EReal) := fun k => hx t b n k
  simp only [hx', hL.hW, hL.hb, hL.hg, hL.hbeta, hL.hmu, hL.hvar, Ideal.addf_def, Ideal.subf_def, Ideal.mulf_def,
    Ideal.hostUnary_rsqrt_def, Ideal.ofBits_def]
  -- the epsilon word is the real `eps`; with `var ≥ 0` the whole expression is the reading of `linbnRef`
  rw [Cert.Consts.ofBits_eps]
  exact Cert.Reals.linbnRef_coe P hL.var_nonneg (xr t b) n c

/-- The key layer (`%35`). -/
theorem layer_k (P : LinBN) (xr : Fin 4 → Fin 8 → Fin 1024 → Fin 512 → ℝ)
    (x0 : (⟨S4x8x1024x512, .f32⟩ : BufTy).Contents (Elt Ideal)) (x7 : (⟨S512x512, .f32⟩ : BufTy).Contents (Elt Ideal))
    (x8 x9 x10 x11 x12 : (⟨S512, .f32⟩ : BufTy).Contents (Elt Ideal))
    (hx : InputIs xr x0) (hL : LayerAre P x7 x8 x9 x10 x11 x12)
    (t : Fin 4) (b : Fin 8) (n : Fin 1024) (c : Fin 512) :
    val_main_v35 (F := Ideal) x0 x7 x8 x9 x10 x11 x12 (ix4 t b n c) = ((linbnRef P (xr t b) n c : ℝ) : EReal) := by
  -- the composed index maps at `(t, b, n, c)`: the contraction reads row `(t, b, n, ·)` of the input against row
  -- `c` of the weight, and every per-channel vector (bias, mean, scale, offset) is read at channel `c`
  have eL : ∀ k : Fin 512, lidx_main_v19 (ix4 t b n c) k = ix4 t b n k := fun k =>
    funext fun a => Fin.ext (by match a with | ⟨0, _⟩ => rfl | ⟨1, _⟩ => rfl | ⟨2, _⟩ => rfl | ⟨3, _⟩ => rfl)
  have eR : ∀ k : Fin 512, ridx_main_v19 (ix4 t b n c) k = ix2 c k := fun k =>
    funext fun a => Fin.ext (by match a with | ⟨0, _⟩ => rfl | ⟨1, _⟩ => rfl)
  have eBias : idx_main_v20 (idx_main_v21 (ix4 t b n c)) = ix1 c :=
    funext fun a => Fin.ext (by match a with | ⟨0, _⟩ => rfl)
  have eMean : idx_main_v23 (idx_main_v24 (ix4 t b n c)) = ix1 c :=
    funext fun a => Fin.ext (by match a with | ⟨0, _⟩ => rfl)
  have eScale : idx_main_v30 (idx_main_v31 (ix4 t b n c)) = ix1 c :=
    funext fun a => Fin.ext (by match a with | ⟨0, _⟩ => rfl)
  have eOffset : idx_main_v33 (idx_main_v34 (ix4 t b n c)) = ix1 c :=
    funext fun a => Fin.ext (by match a with | ⟨0, _⟩ => rfl)
  -- read the layer down to its arguments: add (mul (sub (add (dot, bias), mean), gain * rsqrt (var + eps)), offset)
  rw [val_main_v35_apply, val_main_v32_apply, val_main_v25_apply, val_main_v22_apply, val_main_v19_apply,
    val_main_v21_apply, val_main_v20_apply, val_main_v24_apply, val_main_v23_apply, val_main_v31_apply,
    val_main_v30_apply, val_main_v29_apply, val_main_v28_apply, val_main_v27_apply, val_main_v26_apply,
    val_main_cst_0_apply, val_main_v34_apply, val_main_v33_apply, eBias, eMean, eScale, eOffset]
  simp only [eL, eR]
  -- the arguments are readings of reals; the operations are those of the extended reals
  have hx' : ∀ k : Fin 512, x0 (ix4 t b n k) = ((xr t b n k : ℝ) : EReal) := fun k => hx t b n k
  simp only [hx', hL.hW, hL.hb, hL.hg, hL.hbeta, hL.hmu, hL.hvar, Ideal.addf_def, Ideal.subf_def, Ideal.mulf_def,
    Ideal.hostUnary_rsqrt_def, Ideal.ofBits_def]
  -- the epsilon word is the real `eps`; with `var ≥ 0` the whole expression is the reading of `linbnRef`
  rw [Cert.Consts.ofBits_eps]
  exact Cert.Reals.linbnRef_coe P hL.var_nonneg (xr t b) n c

/-- The value layer (`%54`). -/
theorem layer_v (P : LinBN) (xr : Fin 4 → Fin 8 → Fin 1024 → Fin 512 → ℝ)
    (x0 : (⟨S4x8x1024x512, .f32⟩ : BufTy).Contents (Elt Ideal)) (x13 : (⟨S512x512, .f32⟩ : BufTy).Contents (Elt Ideal))
    (x14 x15 x16 x17 x18 : (⟨S512, .f32⟩ : BufTy).Contents (Elt Ideal))
    (hx : InputIs xr x0) (hL : LayerAre P x13 x14 x15 x16 x17 x18)
    (t : Fin 4) (b : Fin 8) (n : Fin 1024) (c : Fin 512) :
    val_main_v54 (F := Ideal) x0 x13 x14 x15 x16 x17 x18 (ix4 t b n c) = ((linbnRef P (xr t b) n c : ℝ) : EReal) := by
  -- the composed index maps at `(t, b, n, c)`: the contraction reads row `(t, b, n, ·)` of the input against row
  -- `c` of the weight, and every per-channel vector (bias, mean, scale, offset) is read at channel `c`
  have eL : ∀ k : Fin 512, lidx_main_v38 (ix4 t b n c) k = ix4 t b n k := fun k =>
    funext fun a => Fin.ext (by match a with | ⟨0, _⟩ => rfl | ⟨1, _⟩ => rfl | ⟨2, _⟩ => rfl | ⟨3, _⟩ => rfl)
  have eR : ∀ k : Fin 512, ridx_main_v38 (ix4 t b n c) k = ix2 c k := fun k =>
    funext fun a => Fin.ext (by match a with | ⟨0, _⟩ => rfl | ⟨1, _⟩ => rfl)
  have eBias : idx_main_v39 (idx_main_v40 (ix4 t b n c)) = ix1 c :=
    funext fun a => Fin.ext (by match a with | ⟨0, _⟩ => rfl)
  have eMean : idx_main_v42 (idx_main_v43 (ix4 t b n c)) = ix1 c :=
    funext fun a => Fin.ext (by match a with | ⟨0, _⟩ => rfl)
  have eScale : idx_main_v49 (idx_main_v50 (ix4 t b n c)) = ix1 c :=
    funext fun a => Fin.ext (by match a with | ⟨0, _⟩ => rfl)
  have eOffset : idx_main_v52 (idx_main_v53 (ix4 t b n c)) = ix1 c :=
    funext fun a => Fin.ext (by match a with | ⟨0, _⟩ => rfl)
  -- read the layer down to its arguments: add (mul (sub (add (dot, bias), mean), gain * rsqrt (var + eps)), offset)
  rw [val_main_v54_apply, val_main_v51_apply, val_main_v44_apply, val_main_v41_apply, val_main_v38_apply,
    val_main_v40_apply, val_main_v39_apply, val_main_v43_apply, val_main_v42_apply, val_main_v50_apply,
    val_main_v49_apply, val_main_v48_apply, val_main_v47_apply, val_main_v46_apply, val_main_v45_apply,
    val_main_cst_1_apply, val_main_v53_apply, val_main_v52_apply, eBias, eMean, eScale, eOffset]
  simp only [eL, eR]
  -- the arguments are readings of reals; the operations are those of the extended reals
  have hx' : ∀ k : Fin 512, x0 (ix4 t b n k) = ((xr t b n k : ℝ) : EReal) := fun k => hx t b n k
  simp only [hx', hL.hW, hL.hb, hL.hg, hL.hbeta, hL.hmu, hL.hvar, Ideal.addf_def, Ideal.subf_def, Ideal.mulf_def,
    Ideal.hostUnary_rsqrt_def, Ideal.ofBits_def]
  -- the epsilon word is the real `eps`; with `var ≥ 0` the whole expression is the reading of `linbnRef`
  rw [Cert.Consts.ofBits_eps]
  exact Cert.Reals.linbnRef_coe P hL.var_nonneg (xr t b) n c

end Cert.ReferenceIdeal.Hand

end
-- ==== Proof.RefAttn.lean ====
/-
  The reference's linear-attention core read at an index: heads split off the channel axis
  (reshape and transpose), keys against values summed over the tokens and divided by 1024, queries
  against that, heads laid side by side again (`%62`).  At `(t, b, n, c)` it is the reading of `attn`
  of the three layers' outputs on slab `(t, b)`.
-/
import proofs.«148636_j56599079026971_1_alg».proof.Proof.Gen.ReferenceIdeal.Read
import proofs.«148636_j56599079026971_1_alg».proof.Proof.Layer
import proofs.«148636_j56599079026971_1_alg».proof.Proof.Reals
import proofs.«148636_j56599079026971_1_alg».proof.Proof.Consts
import proofs.«148636_j56599079026971_1_alg».proof.Proof.RefLayers

noncomputable section

namespace Cert.ReferenceIdeal.Hand

open Cert.ReferenceIdeal Cert.ReferenceIdeal.Gen Cert.ReferenceIdeal.Read Cert.Spec
open Idealize.ShloMosaic Idealize.ShloMosaic.TcCoe Idealize.ShloMosaic.ValueIdx Idealize.ShloMosaic.StableHlo

/-- Splitting the heads off the channel axis and moving the head axis in front of the token axis:
    the element at `(t, b, h, n, d)` of the head layout is channel `64 h + d` of token `n`
    (row-major arithmetic on the flattened position). -/
theorem idx_heads (t : Fin 4) (b : Fin 8) (h : Fin 8) (n : Fin 1024) (d : Fin 64) :
    idx_main_v17 (idx_main_v18 (ix5 t b h n d)) = ix4 t b n (col h d) := by
  have ht := t.isLt; have hb := b.isLt; have hh := h.isLt; have hn := n.isLt; have hd := d.isLt
  funext a
  apply Fin.ext
  match a with
  | ⟨0, _⟩ => show ((((t.val * 8 + b.val) * 1024 + n.val) * 8 + h.val) * 64 + d.val) / 4194304 = t.val; omega
  | ⟨1, _⟩ => show ((((t.val * 8 + b.val) * 1024 + n.val) * 8 + h.val) * 64 + d.val) / 524288 % 8 = b.val; omega
  | ⟨2, _⟩ => show ((((t.val * 8 + b.val) * 1024 + n.val) * 8 + h.val) * 64 + d.val) / 512 % 1024 = n.val; omega
  | ⟨3, _⟩ => show ((((t.val * 8 + b.val) * 1024 + n.val) * 8 + h.val) * 64 + d.val) % 512 = 64 * h.val + d.val; omega

/-- Laying the heads side by side again: channel `c` of token `n` is read from head `c / 64` at
    place `c % 64`. -/
theorem idx_merge (t : Fin 4) (b : Fin 8) (n : Fin 1024) (c : Fin 512) :
    idx_main_v61 (idx_main_v62 (ix4 t b n c)) = ix5 t b (headOf c) n (within c) := by
  have ht := t.isLt; have hb := b.isLt; have hn := n.isLt; have hc := c.isLt
  funext a
  apply Fin.ext
  match a with
  | ⟨0, _⟩ => show (((t.val * 8 + b.val) * 1024 + n.val) * 512 + c.val) / 4194304 = t.val; omega
  | ⟨1, _⟩ => show (((t.val * 8 + b.val) * 1024 + n.val) * 512 + c.val) / 524288 % 8 = b.val; omega
  | ⟨2, _⟩ => show (((t.val * 8 + b.val) * 1024 + n.val) * 512 + c.val) / 64 % 8 = c.val / 64; omega
  | ⟨3, _⟩ => show (((t.val * 8 + b.val) * 1024 + n.val) * 512 + c.val) / 512 % 1024 = n.val; omega
  | ⟨4, _⟩ => show (((t.val * 8 + b.val) * 1024 + n.val) * 512 + c.val) % 64 = c.val % 64; omega

/-- The query heads `%18`: head `h`, token `n`, place `d` is the query layer at channel `64 h + d`. -/
theorem heads_q (P : LinBN) (xr : Fin 4 → Fin 8 → Fin 1024 → Fin 512 → ℝ)
    (x0 : (⟨S4x8x1024x512, .f32⟩ : BufTy).Contents (Elt Ideal)) (x1 : (⟨S512x512, .f32⟩ : BufTy).Contents (Elt Ideal))
    (x2 x3 x4 x5 x6 : (⟨S512, .f32⟩ : BufTy).Contents (Elt Ideal))
    (hx : InputIs xr x0) (hL : LayerAre P x1 x2 x3 x4 x5 x6)
    (t : Fin 4) (b : Fin 8) (h : Fin 8) (n : Fin 1024) (d : Fin 64) :
    val_main_v18 (F := Ideal) x0 x1 x2 x3 x4 x5 x6 (ix5 t b h n d) = ((linbnRef P (xr t b) n (col h d) : ℝ) : EReal) := by
  have e : idx_main_v17 (idx_main_v18 (ix5 t b h n d)) = ix4 t b n (col h d) := idx_heads t b h n d
  rw [val_main_v18_apply, val_main_v17_apply, e]
  exact layer_q P xr x0 x1 x2 x3 x4 x5 x6 hx hL t b n (col h d)

/-- The key heads `%37`. -/
theorem heads_k (P : LinBN) (xr : Fin 4 → Fin 8 → Fin 1024 → Fin 512 → ℝ)
    (x0 : (⟨S4x8x1024x512, .f32⟩ : BufTy).Contents (Elt Ideal)) (x7 : (⟨S512x512, .f32⟩ : BufTy).Contents (Elt Ideal))
    (x8 x9 x10 x11 x12 : (⟨S512, .f32⟩ : BufTy).Contents (Elt Ideal))
    (hx : InputIs xr x0) (hL : LayerAre P x7 x8 x9 x10 x11 x12)
    (t : Fin 4) (b : Fin 8) (h : Fin 8) (n : Fin 1024) (d : Fin 64) :
    val_main_v37 (F := Ideal) x0 x7 x8 x9 x10 x11 x12 (ix5 t b h n d) = ((linbnRef P (xr t b) n (col h d) : ℝ) : EReal) := by
  have e : idx_main_v36 (idx_main_v37 (ix5 t b h n d)) = ix4 t b n (col h d) := idx_heads t b h n d
  rw [val_main_v37_apply, val_main_v36_apply, e]
  exact layer_k P xr x0 x7 x8 x9 x10 x11 x12 hx hL t b n (col h d)

/-- The value heads `%56`. -/
theorem heads_v (P : LinBN) (xr : Fin 4 → Fin 8 → Fin 1024 → Fin 512 → ℝ)
    (x0 : (⟨S4x8x1024x512, .f32⟩ : BufTy).Contents (Elt Ideal)) (x13 : (⟨S512x512, .f32⟩ : BufTy).Contents (Elt Ideal))
    (x14 x15 x16 x17 x18 : (⟨S512, .f32⟩ : BufTy).Contents (Elt Ideal))
    (hx : InputIs xr x0) (hL : LayerAre P x13 x14 x15 x16 x17 x18)
    (t : Fin 4) (b : Fin 8) (h : Fin 8) (n : Fin 1024) (d : Fin 64) :
    val_main_v56 (F := Ideal) x0 x13 x14 x15 x16 x17 x18 (ix5 t b h n d) = ((linbnRef P (xr t b) n (col h d) : ℝ) : EReal) := by
  have e : idx_main_v55 (idx_main_v56 (ix5 t b h n d)) = ix4 t b n (col h d) := idx_heads t b h n d
  rw [val_main_v56_apply, val_main_v55_apply, e]
  exact layer_v P xr x0 x13 x14 x15 x16 x17 x18 hx hL t b n (col h d)

/-- Keys against values over the tokens, divided by `1024` (`%59`): the reading of `kv`. -/
theorem kv_apply (Pk Pv : LinBN) (xr : Fin 4 → Fin 8 → Fin 1024 → Fin 512 → ℝ)
    (x0 : (⟨S4x8x1024x512, .f32⟩ : BufTy).Contents (Elt Ideal)) (x7 : (⟨S512x512, .f32⟩ : BufTy).Contents (Elt Ideal)) (x8 x9 x10 x11 x12 : (⟨S512, .f32⟩ : BufTy).Contents (Elt Ideal)) (x13 : (⟨S512x512, .f32⟩ : BufTy).Contents (Elt Ideal)) (x14 x15 x16 x17 x18 : (⟨S512, .f32⟩ : BufTy).Contents (Elt Ideal))
    (hx : InputIs xr x0) (hk : LayerAre Pk x7 x8 x9 x10 x11 x12) (hv : LayerAre Pv x13 x14 x15 x16 x17 x18)
    (t : Fin 4) (b : Fin 8) (h : Fin 8) (d e : Fin 64) :
    val_main_v59 (F := Ideal) x0 x7 x8 x9 x10 x11 x12 x13 x14 x15 x16 x17 x18 (ix5 t b h d e)
      = ((kv (linbnRef Pk (xr t b)) (linbnRef Pv (xr t b)) h d e : ℝ) : EReal) := by
  rw [val_main_v59_apply, val_main_v58_apply, val_main_cst_2_apply, val_main_v57_apply,
    Ideal.hostDivf_def, Ideal.ofBits_def, Cert.Consts.ofBits_1024, ← Cert.Reals.kv_coe_div]
  congr 1
  refine Finset.sum_congr rfl fun k _ => ?_
  have el : lidx_main_v57 (ix5 t b h d e) k = ix5 t b h k d := funext fun a => Fin.ext (by
    match a with
    | ⟨0, _⟩ => rfl
    | ⟨1, _⟩ => rfl
    | ⟨2, _⟩ => rfl
    | ⟨3, _⟩ => rfl
    | ⟨4, _⟩ => rfl)
  have er : ridx_main_v57 (ix5 t b h d e) k = ix5 t b h k e := funext fun a => Fin.ext (by
    match a with
    | ⟨0, _⟩ => rfl
    | ⟨1, _⟩ => rfl
    | ⟨2, _⟩ => rfl
    | ⟨3, _⟩ => rfl
    | ⟨4, _⟩ => rfl)
  rw [el, er, heads_k Pk xr x0 x7 x8 x9 x10 x11 x12 hx hk, heads_v Pv xr x0 x13 x14 x15 x16 x17 x18 hx hv]

/-- The attention output `%62` at an index. -/
theorem attn_apply (Pq Pk Pv : LinBN) (xr : Fin 4 → Fin 8 → Fin 1024 → Fin 512 → ℝ)
    (x0 : (⟨S4x8x1024x512, .f32⟩ : BufTy).Contents (Elt Ideal)) (x1 : (⟨S512x512, .f32⟩ : BufTy).Contents (Elt Ideal)) (x2 x3 x4 x5 x6 : (⟨S512, .f32⟩ : BufTy).Contents (Elt Ideal)) (x7 : (⟨S512x512, .f32⟩ : BufTy).Contents (Elt Ideal)) (x8 x9 x10 x11 x12 : (⟨S512, .f32⟩ : BufTy).Contents (Elt Ideal)) (x13 : (⟨S512x512, .f32⟩ : BufTy).Contents (Elt Ideal)) (x14 x15 x16 x17 x18 : (⟨S512, .f32⟩ : BufTy).Contents (Elt Ideal))
    (hx : InputIs xr x0) (hq : LayerAre Pq x1 x2 x3 x4 x5 x6) (hk : LayerAre Pk x7 x8 x9 x10 x11 x12)
    (hv : LayerAre Pv x13 x14 x15 x16 x17 x18)
    (t : Fin 4) (b : Fin 8) (n : Fin 1024) (c : Fin 512) :
    val_main_v62 (F := Ideal) x0 x1 x2 x3 x4 x5 x6 x7 x8 x9 x10 x11 x12 x13 x14 x15 x16 x17 x18 (ix4 t b n c)
      = ((attn (linbnRef Pq (xr t b)) (linbnRef Pk (xr t b)) (linbnRef Pv (xr t b)) n c : ℝ) : EReal) := by
  rw [val_main_v62_apply, val_main_v61_apply, idx_merge, val_main_v60_apply]
  unfold attn
  rw [← Cert.Reals.attnHead_coe]
  refine Finset.sum_congr rfl fun d _ => ?_
  have el : lidx_main_v60 (ix5 t b (headOf c) n (within c)) d = ix5 t b (headOf c) n d := funext fun a => Fin.ext (by
    match a with
    | ⟨0, _⟩ => rfl
    | ⟨1, _⟩ => rfl
    | ⟨2, _⟩ => rfl
    | ⟨3, _⟩ => rfl
    | ⟨4, _⟩ => rfl)
  have er : ridx_main_v60 (ix5 t b (headOf c) n (within c)) d = ix5 t b (headOf c) d (within c) := funext fun a => Fin.ext (by
    match a with
    | ⟨0, _⟩ => rfl
    | ⟨1, _⟩ => rfl
    | ⟨2, _⟩ => rfl
    | ⟨3, _⟩ => rfl
    | ⟨4, _⟩ => rfl)
  rw [el, er, heads_q Pq xr x0 x1 x2 x3 x4 x5 x6 hx hq,
    kv_apply Pk Pv xr x0 x7 x8 x9 x10 x11 x12 x13 x14 x15 x16 x17 x18 hx hk hv]

end Cert.ReferenceIdeal.Hand

end
-- ==== Proof.RefOut.lean ====
/-
  The reference's output layer over the attention output, and with it the reference's whole
  result: at `(t, b, n, c)` the reading of `outSlab` of slab `(t, b)` at `(n, c)`.
-/
import proofs.«148636_j56599079026971_1_alg».proof.Proof.Gen.ReferenceIdeal.Read
import proofs.«148636_j56599079026971_1_alg».proof.Proof.Layer
import proofs.«148636_j56599079026971_1_alg».proof.Proof.Reals
import proofs.«148636_j56599079026971_1_alg».proof.Proof.Consts
import proofs.«148636_j56599079026971_1_alg».proof.Proof.RefAttn

noncomputable section

namespace Cert.ReferenceIdeal.Hand

open Cert.ReferenceIdeal Cert.ReferenceIdeal.Gen Cert.ReferenceIdeal.Read Cert.Spec
open Idealize.ShloMosaic Idealize.ShloMosaic.TcCoe Idealize.ShloMosaic.ValueIdx Idealize.ShloMosaic.StableHlo

/-- Broadcasting a per-channel vector first to `1x1x1x512` and then over the three leading axes
    reads the vector at the last coordinate. -/
private theorem chan_idx (t : Fin 4) (b : Fin 8) (n : Fin 1024) (c : Fin 512) :
    idx_main_v64 (idx_main_v65 (ix4 t b n c)) = ix1 c :=
  funext fun a => Fin.ext (by match a with | ⟨0, _⟩ => rfl)

/-- The bias `%65` at an index is the bias vector at the channel. -/
private theorem bias_apply (x20 : (⟨S512, .f32⟩ : BufTy).Contents (Elt Ideal))
    (t : Fin 4) (b : Fin 8) (n : Fin 1024) (c : Fin 512) :
    val_main_v65 (F := Ideal) x20 (ix4 t b n c) = x20 (ix1 c) := by
  rw [val_main_v65_apply, val_main_v64_apply]
  exact congrArg x20 (chan_idx t b n c)

/-- The running mean `%68` at an index is the mean vector at the channel. -/
private theorem mean_apply (x23 : (⟨S512, .f32⟩ : BufTy).Contents (Elt Ideal))
    (t : Fin 4) (b : Fin 8) (n : Fin 1024) (c : Fin 512) :
    val_main_v68 (F := Ideal) x23 (ix4 t b n c) = x23 (ix1 c) := by
  rw [val_main_v68_apply, val_main_v67_apply]
  exact congrArg x23 (chan_idx t b n c)

/-- The offset `%78` at an index is the offset vector at the channel. -/
private theorem offset_apply (x22 : (⟨S512, .f32⟩ : BufTy).Contents (Elt Ideal))
    (t : Fin 4) (b : Fin 8) (n : Fin 1024) (c : Fin 512) :
    val_main_v78 (F := Ideal) x22 (ix4 t b n c) = x22 (ix1 c) := by
  rw [val_main_v78_apply, val_main_v77_apply]
  exact congrArg x22 (chan_idx t b n c)

/-- The per-channel scale `%73 = gain * rsqrt (var + eps)` at a channel. -/
private theorem scale_apply (x21 x24 : (⟨S512, .f32⟩ : BufTy).Contents (Elt Ideal)) (c : Fin 512) :
    val_main_v73 (F := Ideal) x21 x24 (ix1 c)
      = x21 (ix1 c) * Ideal.rsqrt (x24 (ix1 c) + Ideal.ofBits .f32 0x3727C5AC#32) := by
  rw [val_main_v73_apply, val_main_v72_apply, val_main_v71_apply, val_main_v70_apply, val_main_cst_3_apply,
    Ideal.mulf_def, Ideal.hostUnary_rsqrt_def, Ideal.addf_def, Ideal.ofBits_def]

/-- The broadcast scale `%75` at an index is the scale at the channel. -/
private theorem scale_bcast_apply (x21 x24 : (⟨S512, .f32⟩ : BufTy).Contents (Elt Ideal))
    (t : Fin 4) (b : Fin 8) (n : Fin 1024) (c : Fin 512) :
    val_main_v75 (F := Ideal) x21 x24 (ix4 t b n c)
      = x21 (ix1 c) * Ideal.rsqrt (x24 (ix1 c) + Ideal.ofBits .f32 0x3727C5AC#32) := by
  rw [val_main_v75_apply, val_main_v74_apply]
  exact (congrArg (val_main_v73 (F := Ideal) x21 x24) (chan_idx t b n c)).trans (scale_apply x21 x24 c)

/-- The contraction's left index at `(t, b, n, c)` and `k` is `(t, b, n, k)`. -/
private theorem lidx_eq (t : Fin 4) (b : Fin 8) (n : Fin 1024) (c k : Fin 512) :
    lidx_main_v63 (ix4 t b n c) k = ix4 t b n k :=
  funext fun a => Fin.ext (by match a with | ⟨0, _⟩ => rfl | ⟨1, _⟩ => rfl | ⟨2, _⟩ => rfl | ⟨3, _⟩ => rfl)

/-- The contraction's right index at `(t, b, n, c)` and `k` is `(c, k)`: the weight is stored output channel first. -/
private theorem ridx_eq (t : Fin 4) (b : Fin 8) (n : Fin 1024) (c k : Fin 512) :
    ridx_main_v63 (ix4 t b n c) k = ix2 c k :=
  funext fun a => Fin.ext (by match a with | ⟨0, _⟩ => rfl | ⟨1, _⟩ => rfl)

/-- The reference's result `%79` at an index. -/
theorem out_apply (Pq Pk Pv Pp : LinBN) (xr : Fin 4 → Fin 8 → Fin 1024 → Fin 512 → ℝ)
    (x0 : (⟨S4x8x1024x512, .f32⟩ : BufTy).Contents (Elt Ideal)) (x1 : (⟨S512x512, .f32⟩ : BufTy).Contents (Elt Ideal)) (x2 x3 x4 x5 x6 : (⟨S512, .f32⟩ : BufTy).Contents (Elt Ideal)) (x7 : (⟨S512x512, .f32⟩ : BufTy).Contents (Elt Ideal)) (x8 x9 x10 x11 x12 : (⟨S512, .f32⟩ : BufTy).Contents (Elt Ideal)) (x13 : (⟨S512x512, .f32⟩ : BufTy).Contents (Elt Ideal)) (x14 x15 x16 x17 x18 : (⟨S512, .f32⟩ : BufTy).Contents (Elt Ideal)) (x19 : (⟨S512x512, .f32⟩ : BufTy).Contents (Elt Ideal)) (x20 x21 x22 x23 x24 : (⟨S512, .f32⟩ : BufTy).Contents (Elt Ideal))
    (hx : InputIs xr x0) (hq : LayerAre Pq x1 x2 x3 x4 x5 x6) (hk : LayerAre Pk x7 x8 x9 x10 x11 x12)
    (hv : LayerAre Pv x13 x14 x15 x16 x17 x18) (hp : LayerAre Pp x19 x20 x21 x22 x23 x24)
    (t : Fin 4) (b : Fin 8) (n : Fin 1024) (c : Fin 512) :
    val_main_v79 (F := Ideal) x0 x1 x2 x3 x4 x5 x6 x7 x8 x9 x10 x11 x12 x13 x14 x15 x16 x17 x18 x19 x20 x21 x22 x23 x24 (ix4 t b n c)
      = ((outSlab Pq Pk Pv Pp (xr t b) n c : ℝ) : EReal) := by
  rw [val_main_v79_apply, val_main_v76_apply, val_main_v69_apply, val_main_v66_apply, val_main_v63_apply,
    bias_apply, mean_apply, offset_apply, scale_bcast_apply,
    Ideal.addf_def, Ideal.mulf_def, Ideal.subf_def, Ideal.addf_def]
  have hsum : ∑ k : Fin 512, (val_main_v62 (F := Ideal) x0 x1 x2 x3 x4 x5 x6 x7 x8 x9 x10 x11 x12 x13 x14 x15 x16 x17 x18) (lidx_main_v63 (ix4 t b n c) k) * x19 (ridx_main_v63 (ix4 t b n c) k)
      = ∑ k : Fin 512, ((attn (linbnRef Pq (xr t b)) (linbnRef Pk (xr t b)) (linbnRef Pv (xr t b)) n k : ℝ) : EReal) * (Pp.W c k : EReal) :=
    Finset.sum_congr rfl fun k _ => by
      rw [lidx_eq, ridx_eq, attn_apply Pq Pk Pv xr x0 x1 x2 x3 x4 x5 x6 x7 x8 x9 x10 x11 x12 x13 x14 x15 x16 x17 x18 hx hq hk hv t b n k, hp.hW]
  rw [hsum, hp.hb, hp.hmu, hp.hg, hp.hvar, hp.hbeta, Cert.Consts.ofBits_eps]
  exact Cert.Reals.linbnRef_coe Pp hp.var_nonneg (attn (linbnRef Pq (xr t b)) (linbnRef Pk (xr t b)) (linbnRef Pv (xr t b))) n c

/-- The reference's result array as one function of the index. -/
theorem out_eq (Pq Pk Pv Pp : LinBN) (xr : Fin 4 → Fin 8 → Fin 1024 → Fin 512 → ℝ)
    (x0 : (⟨S4x8x1024x512, .f32⟩ : BufTy).Contents (Elt Ideal)) (x1 : (⟨S512x512, .f32⟩ : BufTy).Contents (Elt Ideal)) (x2 x3 x4 x5 x6 : (⟨S512, .f32⟩ : BufTy).Contents (Elt Ideal)) (x7 : (⟨S512x512, .f32⟩ : BufTy).Contents (Elt Ideal)) (x8 x9 x10 x11 x12 : (⟨S512, .f32⟩ : BufTy).Contents (Elt Ideal)) (x13 : (⟨S512x512, .f32⟩ : BufTy).Contents (Elt Ideal)) (x14 x15 x16 x17 x18 : (⟨S512, .f32⟩ : BufTy).Contents (Elt Ideal)) (x19 : (⟨S512x512, .f32⟩ : BufTy).Contents (Elt Ideal)) (x20 x21 x22 x23 x24 : (⟨S512, .f32⟩ : BufTy).Contents (Elt Ideal))
    (hx : InputIs xr x0) (hq : LayerAre Pq x1 x2 x3 x4 x5 x6) (hk : LayerAre Pk x7 x8 x9 x10 x11 x12)
    (hv : LayerAre Pv x13 x14 x15 x16 x17 x18) (hp : LayerAre Pp x19 x20 x21 x22 x23 x24) :
    val_main_v79 (F := Ideal) x0 x1 x2 x3 x4 x5 x6 x7 x8 x9 x10 x11 x12 x13 x14 x15 x16 x17 x18 x19 x20 x21 x22 x23 x24
      = fun i : S4x8x1024x512.Idx => ((outSlab Pq Pk Pv Pp (xr (i 0) (i 1)) (i 2) (i 3) : ℝ) : EReal) := by
  funext i
  rw [eq_ix4 i]
  exact out_apply Pq Pk Pv Pp xr x0 x1 x2 x3 x4 x5 x6 x7 x8 x9 x10 x11 x12 x13 x14 x15 x16 x17 x18 x19 x20 x21 x22 x23 x24 hx hq hk hv hp (i 0) (i 1) (i 2) (i 3)

end Cert.ReferenceIdeal.Hand

end
-- ==== Proof.lean ====
/-
  The certificate of a linear-attention block: four channel projections, each a linear layer followed by
  an eval-mode batch norm, around a per-head attention `y = q (k^T v / N)`.

  The kernel folds each layer's bias, running mean and offset into one per-channel shift
  `(b - mu) * s + beta` with `s = g / sqrt (var + eps)` and computes `(x W^T) * s + shift`; the reference
  computes `((x W^T) + b - mu) * s + beta`.  These agree by distributivity, which holds over the reals and
  fails over the extended reals when `s` is infinite; so the precondition asks, beside finite inputs,
  for nonnegative variances (then `var + eps > 0` and every scale is a real), and the proof shows that
  both programs' results are readings of ONE real-valued function of the arguments, `Cert.Spec.outSlab`,
  slab by slab.  Everything else is the same on both sides term by term: the kernel's `1/1024` is exactly
  `2^-10`, its sums run over the same indices in the same order, and its changes of float format are the
  identity on extended reals.

  The three frames are the generated ones (the reference's is its run with the value dropped);
  the idealization rewrote nothing, so `preserves` is trivial.
-/
import proofs.«148636_j56599079026971_1_alg».proof.Defs
import proofs.«148636_j56599079026971_1_alg».proof.Proof.Gen.Kernel
import proofs.«148636_j56599079026971_1_alg».proof.Proof.Gen.Kernel.Skeleton
import proofs.«148636_j56599079026971_1_alg».proof.Proof.Gen.Kernel.Launch
import proofs.«148636_j56599079026971_1_alg».proof.Proof.Gen.Kernel.Points
import proofs.«148636_j56599079026971_1_alg».proof.Proof.Gen.Kernel.Frame
import proofs.«148636_j56599079026971_1_alg».proof.Proof.Gen.KernelIdeal
import proofs.«148636_j56599079026971_1_alg».proof.Proof.Gen.KernelIdeal.Skeleton
import proofs.«148636_j56599079026971_1_alg».proof.Proof.Gen.KernelIdeal.Launch
import proofs.«148636_j56599079026971_1_alg».proof.Proof.Gen.KernelIdeal.Points
import proofs.«148636_j56599079026971_1_alg».proof.Proof.Gen.KernelIdeal.Frame
import proofs.«148636_j56599079026971_1_alg».proof.Proof.Gen.ReferenceIdeal
import proofs.«148636_j56599079026971_1_alg».proof.Proof.Gen.Pre_finite_inputs
import proofs.«148636_j56599079026971_1_alg».proof.Proof.Gen.ReferenceIdeal.Run
import proofs.«148636_j56599079026971_1_alg».proof.Proof.Gen.ReferenceIdeal.Read
import proofs.«148636_j56599079026971_1_alg».proof.Proof.Finite
import proofs.«148636_j56599079026971_1_alg».proof.Proof.KerRun
import proofs.«148636_j56599079026971_1_alg».proof.Proof.RefOut
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the reading of `outSlab` of each slab: the kernel by its run with the
    result named, the reference by its generated run read one operation at a time, on the same real
    arrays because the two memories agree on the arguments. -/
theorem algebraic : Cert.algebraic_KernelIdeal_ReferenceIdeal := by
  intro m ρ m' ρ' hpre hagree
  choose x Pq Pk Pv Pp hx hq hk hv hp using fun c =>
    Cert.Pre_finite_inputs.Hand.reals_of_pre _ _ _ _ _ _ _ _ _ _ _ _ _ _ _ _ _ _ _ _ _ _ _ _ _ (hpre c)
  have hA : ∀ c, Cert.KernelIdeal.Hand.ArgsAre m c (x c) (Pq c) (Pk c) (Pv c) (Pp c) :=
    fun c => ⟨hx c, hq c, hk c, hv c, hp c⟩
  refine ⟨_, Cert.KernelIdeal.Hand.run_value m ρ x Pq Pk Pv Pp hA, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v79_eq,
      (hagree c).1,
      (hagree c).2.1,
      (hagree c).2.2.1,
      (hagree c).2.2.2.1,
      (hagree c).2.2.2.2.1,
      (hagree c).2.2.2.2.2.1,
      (hagree c).2.2.2.2.2.2.1,
      (hagree c).2.2.2.2.2.2.2.1,
      (hagree c).2.2.2.2.2.2.2.2.1,
      (hagree c).2.2.2.2.2.2.2.2.2.1,
      (hagree c).2.2.2.2.2.2.2.2.2.2.1,
      (hagree c).2.2.2.2.2.2.2.2.2.2.2.1,
      (hagree c).2.2.2.2.2.2.2.2.2.2.2.2.1,
      (hagree c).2.2.2.2.2.2.2.2.2.2.2.2.2.1,
      (hagree c).2.2.2.2.2.2.2.2.2.2.2.2.2.2.1,
      (hagree c).2.2.2.2.2.2.2.2.2.2.2.2.2.2.2.1,
      (hagree c).2.2.2.2.2.2.2.2.2.2.2.2.2.2.2.2.1,
      (hagree c).2.2.2.2.2.2.2.2.2.2.2.2.2.2.2.2.2.1,
      (hagree c).2.2.2.2.2.2.2.2.2.2.2.2.2.2.2.2.2.2.1,
      (hagree c).2.2.2.2.2.2.2.2.2.2.2.2.2.2.2.2.2.2.2.1,
      (hagree c).2.2.2.2.2.2.2.2.2.2.2.2.2.2.2.2.2.2.2.2.1,
      (hagree c).2.2.2.2.2.2.2.2.2.2.2.2.2.2.2.2.2.2.2.2.2.1,
      (hagree c).2.2.2.2.2.2.2.2.2.2.2.2.2.2.2.2.2.2.2.2.2.2.1,
      (hagree c).2.2.2.2.2.2.2.2.2.2.2.2.2.2.2.2.2.2.2.2.2.2.2.1,
      (hagree c).2.2.2.2.2.2.2.2.2.2.2.2.2.2.2.2.2.2.2.2.2.2.2.2]
  exact Cert.ReferenceIdeal.Hand.out_eq (Pq c) (Pk c) (Pv c) (Pp c) (x c) _ _ _ _ _ _ _ _ _ _ _ _ _ _ _ _ _ _ _ _ _ _ _ _ _
    (hx c) (hq c) (hk c) (hv c) (hp c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
